-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S32x16 .f32) (main_arg5 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x32 .f32) (main_arg3 : FVec F S32 .f32) (main_arg4 : FVec F S32x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1x32 : Shape := ⟨2, ![1, 32]⟩
abbrev S1x16 : Shape := ⟨2, ![1, 16]⟩
abbrev S10000x16 : Shape := ⟨2, ![10000, 16]⟩
abbrev S400x10000 : Shape := ⟨2, ![400, 10000]⟩
abbrev S400x16 : Shape := ⟨2, ![400, 16]⟩
abbrev S10000x32 : Shape := ⟨2, ![10000, 32]⟩
abbrev S400x32 : Shape := ⟨2, ![400, 32]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x32, .f32⟩
  | .hbm, ⟨7, _⟩ => ⟨S1x16, .f32⟩
  | .hbm, ⟨8, _⟩ => ⟨S10000x16, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x32, .f32⟩
  | .local _ .vmem, ⟨4, _⟩ => ⟨S1x32, .f32⟩
  | .local _ .vmem, ⟨5, _⟩ => ⟨S32x16, .f32⟩
  | .local _ .vmem, ⟨6, _⟩ => ⟨S1x16, .f32⟩
  | .local _ .vmem, ⟨7, _⟩ => ⟨S400x16, .f32⟩
  | .local _ .vmem, ⟨8, _⟩ => ⟨S400x16, .f32⟩
  | .local _ .vmem, ⟨9, _⟩ => ⟨S10000x32, .f32⟩
  | .local _ .vmem, ⟨10, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v22 : BitVec 32 := Scalar.muli arg1 c400_i32
  let v23 : Index := Scalar.indexCast v22
  let c0_14 : Index := 0#32
  ![v23.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S32_S1x32 : S32.ShapeCasts S1x32
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S400x10000_S400x10000_0_0 : ∀ a, (![0, 0] : Fin 2 → Nat) a + S400x10000.size a ≤ S400x10000.size a
  h_S400x10000 : 0 < S400x10000.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  inb_S32x16_S32x16_0_0 : ∀ a, (![0, 0] : Fin 2 → Nat) a + S32x16.size a ≤ S32x16.size a
  h_S32x16 : 0 < S32x16.numel
  h_S400x16 : 0 < S400x16.numel
  shapeCasts_S400x16_S400x16 : S400x16.ShapeCasts S400x16
  inb_S10000x16_S10000x16_0_0 : ∀ a, (![0, 0] : Fin 2 → Nat) a + S10000x16.size a ≤ S10000x16.size a
  h_S10000x16 : 0 < S10000x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S400x16_S400x16_0_0 : ∀ a, (![0, 0] : Fin 2 → Nat) a + S400x16.size a ≤ S400x16.size a
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x16_S400x16_1_0_0_1_n_n_wf : DotDims.WF S400x32 S32x16 S400x16 [1] [0] [0] [1] [] []
  dot_S400x10000_S10000x16_S400x16_1_0_0_1_n_n_wf : DotDims.WF S400x10000 S10000x16 S400x16 [1] [0] [0] [1] [] []
  hrank0 : 0 < grid0.rank
  k0_off1_inb : ∀ i : grid0.Coords, ∀ (k0_h2 : k0_cond2 i = 1#1), ∀ a, (k0_off1 i) a + S400x16.size a ≤ S10000x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x16.size a ≤ S32x16.size a
  hwx0_4 : ∀ i : grid0.Coords, EltTy.bits .f32 = 32 ∨ (Rect.block (s := S32x16) S32x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x16.size a ≤ S10000x16.size a
  hwx0_6 : ∀ i : grid0.Coords, EltTy.bits .f32 = 32 ∨ (Rect.block (s := S10000x16) S400x16.size (cc0_transform_6 i) (hinb0_6 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x16_S400x16_1_0_0_1_n_n : DotDims S400x32 S32x16 S400x16 where
  lhsContracting := [1]
  rhsContracting := [0]
  lhsNonContracting := [0]
  rhsNonContracting := [1]
  lhsBatch := []
  rhsBatch := []
  wf := dot_S400x32_S32x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S10000x32 : Shape := ⟨2, ![10000, 32]⟩
abbrev S1x32 : Shape := ⟨2, ![1, 32]⟩
abbrev S_ : Shape := ⟨0, ![]⟩
abbrev S10000x16 : Shape := ⟨2, ![10000, 16]⟩
abbrev S1x16 : Shape := ⟨2, ![1, 16]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S10000x32, .f32⟩
  | .hbm, ⟨7, _⟩ => ⟨S10000x32, .f32⟩
  | .hbm, ⟨8, _⟩ => ⟨S1x32, .f32⟩
  | .hbm, ⟨9, _⟩ => ⟨S10000x32, .f32⟩
  | .hbm, ⟨10, _⟩ => ⟨S10000x32, .f32⟩
  | .hbm, ⟨11, _⟩ => ⟨S_, .f32⟩
  | .hbm, ⟨12, _⟩ => ⟨S10000x32, .f32⟩
  | .hbm, ⟨13, _⟩ => ⟨S10000x32, .f32⟩
  | .hbm, ⟨14, _⟩ => ⟨S10000x16, .f32⟩
  | .hbm, ⟨15, _⟩ => ⟨S10000x16, .f32⟩
  | .hbm, ⟨16, _⟩ => ⟨S1x16, .f32⟩
  | .hbm, ⟨17, _⟩ => ⟨S10000x16, .f32⟩
  | .hbm, ⟨18, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.Kernel.Runs.lean ====
/-
  The kernel body of the two-layer graph convolution, run on whole staging memrefs, one theorem per path through its
  three conditionals; each names what every buffer the body touches holds afterwards. Stated for any float instance.
-/
import proofs.«121120_g60687887893100_cont_9to1c4b_149_3_alg».proof.Proof.Gen.Kernel.Skeleton
import proofs.«121120_g60687887893100_cont_9to1c4b_149_3_alg».proof.Proof.Gen.Kernel.Frame
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditionals of the body, decided over the grid -/

/-- The first conditional's condition, from the grid coordinates: both coordinates are zero. -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- The slice of the second scratch that a point of the first phase stores: rows `[off, off + 400)`, every column,
    taken from the block `p`; every other element keeps `d`. -/
def sliceWrite (i : grid0.Coords) (d : Vec F S10000x16 .f32) (p : Vec F S400x16 .f32) : Vec F S10000x16 .f32 :=
  fun y => if hy : ∀ a, k0_off1 i a ≤ (y a).val ∧ (y a).val < k0_off1 i a + S400x16.size a then
    p (Rect.unitLocal (s := S10000x16) (off := k0_off1 i) (size := S400x16.size) y hy) else d y

/-! ## The body, case by case, on any whole staging memrefs

  At a point the body takes one of three paths. At the grid's first point it stores the first support
  `x · W₁` whole into the first scratch and then goes on as every point of the first phase does: it stores
  `relu (adj_blk · s₁ + b₁) · W₂` into the point's 400 rows of the second scratch. At a point of the second phase it
  stores `adj_blk · s₂ + b₂` into the output block. Each statement names what every buffer holds afterwards. -/

/-- The grid's first point: the first scratch ends at the first support, the second scratch at what it held with the
    point's rows replaced; the output block is not touched. -/
theorem runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x32 .f32) (harg9 : arg9.IsWhole) (arg10 : Memref sig .tc .vmem S10000x16 .f32) (harg10 : arg10.IsWhole) (hc0 : cond0 i) (hc1 : k0_cond2 i = 1#1) (hc2 : ¬k0_cond3 i = 1#1)
    (x0 : Vec F S10000x128 .f32) (x1 : Vec F S400x10000 .f32) (x2 : Vec F S128x32 .f32) (x3 : Vec F S1x32 .f32) (x4 : Vec F S32x16 .f32) (x5 : Vec F S1x16 .f32) (x6 : Vec F S400x16 .f32) (xs1 : Vec F S10000x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 x0 x2) ∗ owns (c : Thread nD τ) arg10 fullShare (sliceWrite i xs1 (k0_pay2 x1 (k0_pay1 x0 x2) x3 x4))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  have hz : (![0, 0] : Fin 2 → ℕ) = fun _ => 0 := by funext a; fin_cases a <;> rfl
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; swap; · iexact HS0
    ipureintro
    sl_unfold_words
    simp only [View.readAt_eq_ld, harg2.read_unread, harg3.read_unread, harg4.read_unread, harg5.read_unread, harg6.read_unread, harg7.read_unread, View.ld_unit_zero (S := S10000x128) hz, View.ld_unit_zero (S := S400x10000) hz, View.ld_unit_zero (S := S128x32) hz, View.ld_unit_zero (S := S1x32) hz, View.ld_unit_zero (S := S32x16) hz, View.ld_unit_zero (S := S1x16) hz]
    funext y
    exact View.read_writes_cons_unit_of_mem _ _ _ _ [] y y hz (fun a => (Nat.zero_add _).symm)
  iexists _; isplitr; swap; · iexact HS1
  ipureintro
  sl_unfold_words
  simp only [View.readAt_eq_ld, harg2.read_unread, harg3.read_unread, harg4.read_unread, harg5.read_unread, harg6.read_unread, harg7.read_unread, View.ld_unit_zero (S := S10000x128) hz, View.ld_unit_zero (S := S400x10000) hz, View.ld_unit_zero (S := S128x32) hz, View.ld_unit_zero (S := S1x32) hz, View.ld_unit_zero (S := S32x16) hz, View.ld_unit_zero (S := S1x16) hz, harg9.read_unread, View.ld_unit_zero (S := S10000x32) hz, View.readCov_unit_zero (S := S10000x32) _ hz]
  funext y
  refine (View.read_writes_cons_unit arg10.view _ _ _ [] y (off' := k0_off1 i) rfl).trans ?_
  unfold sliceWrite
  simp only [View.writes_nil, harg10.read_unread]

/-- A later point of the first phase: the first scratch is read and kept, the second scratch ends at what it held with
    the point's rows replaced; the output block is not touched. -/
theorem runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x32 .f32) (harg9 : arg9.IsWhole) (arg10 : Memref sig .tc .vmem S10000x16 .f32) (harg10 : arg10.IsWhole) (hc0 : ¬cond0 i) (hc1 : k0_cond2 i = 1#1) (hc2 : ¬k0_cond3 i = 1#1)
    (x0 : Vec F S10000x128 .f32) (x1 : Vec F S400x10000 .f32) (x2 : Vec F S128x32 .f32) (x3 : Vec F S1x32 .f32) (x4 : Vec F S32x16 .f32) (x5 : Vec F S1x16 .f32) (x6 : Vec F S400x16 .f32) (xs0 : Vec F S10000x32 .f32) (xs1 : Vec F S10000x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare (sliceWrite i xs1 (k0_pay2 x1 xs0 x3 x4))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  have hz : (![0, 0] : Fin 2 → ℕ) = fun _ => 0 := by funext a; fin_cases a <;> rfl
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; · ipureintro; exact harg9.read_unread _
    iexact HS0
  iexists _; isplitr; swap; · iexact HS1
  ipureintro
  sl_unfold_words
  simp only [View.readAt_eq_ld, harg2.read_unread, harg3.read_unread, harg4.read_unread, harg5.read_unread, harg6.read_unread, harg7.read_unread, View.ld_unit_zero (S := S10000x128) hz, View.ld_unit_zero (S := S400x10000) hz, View.ld_unit_zero (S := S128x32) hz, View.ld_unit_zero (S := S1x32) hz, View.ld_unit_zero (S := S32x16) hz, View.ld_unit_zero (S := S1x16) hz, harg9.read_unread, View.ld_unit_zero (S := S10000x32) hz, View.readCov_unit_zero (S := S10000x32) _ hz]
  funext y
  refine (View.read_writes_cons_unit arg10.view _ _ _ [] y (off' := k0_off1 i) rfl).trans ?_
  unfold sliceWrite
  simp only [View.writes_nil, harg10.read_unread]

/-- A point of the second phase: both scratch buffers are read and kept, the output block ends at the adjacency block
    times the second scratch plus the bias. -/
theorem runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x32 .f32) (harg9 : arg9.IsWhole) (arg10 : Memref sig .tc .vmem S10000x16 .f32) (harg10 : arg10.IsWhole) (hc0 : ¬cond0 i) (hc1 : ¬k0_cond2 i = 1#1) (hc2 : k0_cond3 i = 1#1)
    (x0 : Vec F S10000x128 .f32) (x1 : Vec F S400x10000 .f32) (x2 : Vec F S128x32 .f32) (x3 : Vec F S1x32 .f32) (x4 : Vec F S32x16 .f32) (x5 : Vec F S1x16 .f32) (xs0 : Vec F S10000x32 .f32) (xs1 : Vec F S10000x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x1 xs1 x5) ∗ owns (c : Thread nD τ) arg9 fullShare xs0 ∗ owns (c : Thread nD τ) arg10 fullShare xs1) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  have hz : (![0, 0] : Fin 2 → ℕ) = fun _ => 0 := by funext a; fin_cases a <;> rfl
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    sl_unfold_words
    simp only [View.readAt_eq_ld, harg2.read_unread, harg3.read_unread, harg4.read_unread, harg5.read_unread, harg6.read_unread, harg7.read_unread, View.ld_unit_zero (S := S10000x128) hz, View.ld_unit_zero (S := S400x10000) hz, View.ld_unit_zero (S := S128x32) hz, View.ld_unit_zero (S := S1x32) hz, View.ld_unit_zero (S := S32x16) hz, View.ld_unit_zero (S := S1x16) hz, harg10.read_unread, View.ld_unit_zero (S := S10000x16) hz]
    funext y
    exact View.read_writes_cons_unit_of_mem _ _ _ _ [] y y hz (fun a => (Nat.zero_add _).symm)
  isplitl [HS0]
  · iexists _; isplitr; · ipureintro; exact harg9.read_unread _
    iexact HS0
  iexists _; isplitr; · ipureintro; exact harg10.read_unread _
  iexact HS1

end Cert.Kernel.Body

end
-- ==== Proof.Kernel.Body.lean ====
/-
  The frame of the two-layer graph convolution kernel, for any float instance: what the two scratch buffers hold
  between grid points, what the body leaves in every staging buffer, and the run of the whole program.

  The grid has 50 points: 25 of a first phase, then 25 of a second. After the grid's first point the first scratch
  holds the first support `s₁ = x · W₁` for good. After point `n` of the first phase the rows `[0, 400 (n + 1))` of the
  second scratch hold the second support `s₂ = relu (adj · s₁ + b₁) · W₂` (block `n` of it is what point `n` stores);
  from the end of the first phase on, all of it does. A point of the second phase leaves `adj_blk · s₂ + b₂` in the
  output's staging buffer, which the pipeline then writes back; in the first phase the output window is idle.
-/
import proofs.«121120_g60687887893100_cont_9to1c4b_149_3_alg».proof.Proof.Kernel.Runs
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule, decided over the grid -/

/-- The first conditional is taken at the grid's first point only, -/
theorem hcond0 : ∀ t : Fin cfg0.N, cond0 (grid0.coords t) ↔ t.val = 0 :=
  (by decide +kernel : ∀ t : Fin grid0.N, cond0 (grid0.coords t) ↔ t.val = 0)
/-- the second at the 25 points of the first phase, -/
theorem hcond1 : ∀ t : Fin cfg0.N, k0_cond2 (grid0.coords t) = 1#1 ↔ t.val < 25 :=
  (by decide +kernel : ∀ t : Fin grid0.N, k0_cond2 (grid0.coords t) = 1#1 ↔ t.val < 25)
/-- the third at the 25 points of the second phase. -/
theorem hcond2 : ∀ t : Fin cfg0.N, k0_cond3 (grid0.coords t) = 1#1 ↔ 25 ≤ t.val :=
  (by decide +kernel : ∀ t : Fin grid0.N, k0_cond3 (grid0.coords t) = 1#1 ↔ 25 ≤ t.val)

/-- The inputs' windows are never idle. -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
/-- The output's window is idle through the first phase, where its block is not written back either, -/
theorem idleAt6 : ∀ t : Fin cfg0.N, t.val < 25 → cfg0.idle 6 (grid0.coords t) = true := by decide +kernel
theorem noFlush6 : ∀ t : Fin cfg0.N, t.val < 25 → (cfg0.win 6).flush t = false := by decide +kernel
/-- and live through the second, where every point writes its block back. -/
theorem liveAt6 : ∀ t : Fin cfg0.N, 25 ≤ t.val → cfg0.idle 6 (grid0.coords t) = false := by decide +kernel
theorem flush6 : ∀ t : Fin cfg0.N, 25 ≤ t.val → (cfg0.win 6).flush t = true := by decide +kernel

/-- The second grid coordinate of point `t` is `t mod 25`. -/
theorem coord1 : ∀ t : Fin cfg0.N, ((grid0.coords t) 1).val = t.val % 25 := by decide +kernel

/-- At a point of the first phase the slice stored starts at row `400 t`, column 0. -/
theorem off1_at (t : Fin cfg0.N) (ht : t.val < 25) : k0_off1 (grid0.coords t) = ![400 * t.val, 0] := by
  rw [k0_off1_eq, coord1 t, Nat.mod_eq_of_lt ht]

/-! ## The staging memrefs at a point, and the scratch operands -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x16 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x16 .f32 := win0_6.stage (cfg0.slots t 6)
abbrev hs6 (t : Fin cfg0.N) : (ms6 t).IsWhole := hstage0_6 ((cfg0.slots t 6).cast nbuf0_6)
/-- The two scratch operands: whole buffers of the kernel's own. -/
abbrev sc0 : Memref sig .tc .vmem S10000x32 .f32 := Memref.whole cc0_scratch0
abbrev sc1 : Memref sig .tc .vmem S10000x16 .f32 := Memref.whole cc0_scratch1

/-- What the region hands the body before the first point: both scratch buffers at some contents, and the generator
    register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

variable (m : (ℓ : Loc nD τ sig) → Buf (Elt F) ℓ) (ρ : Dev nD → PrngReg)

/-! ## What the scratch buffers and the output block hold -/

/-- The grid's first point. -/
def t0 : Fin cfg0.N := ⟨0, by rw [show cfg0.N = 50 from N_0]; omega⟩

/-- The first support `x · W₁`: what the grid's first point stores into the first scratch. -/
def S1 (c : Dev nD) : Vec F S10000x32 .f32 := k0_pay1 (iblk m c 0 t0) (iblk m c 2 t0)

/-- Block `t` of the second support: `relu (adj_blk · s₁ + b₁) · W₂` over the adjacency block of point `t`. -/
def s2blk (c : Dev nD) (t : Fin cfg0.N) : Vec F S400x16 .f32 := k0_pay2 (iblk m c 1 t) (S1 m c) (iblk m c 3 t) (iblk m c 4 t)

/-- The row block an index of the second scratch lies in, as a grid point of the first phase, -/
def rowBlk (y : S10000x16.Idx) : Fin cfg0.N :=
  ⟨(y 0).val / 400, by rw [show cfg0.N = 50 from N_0]; have := ValueIdx.idx2_lt0 y; omega⟩
/-- and its position inside that block. -/
def rowLoc (y : S10000x16.Idx) : S400x16.Idx :=
  ValueIdx.ix2 ⟨(y 0).val % 400, Nat.mod_lt _ (by omega)⟩ ⟨(y 1).val, ValueIdx.idx2_lt1 y⟩

/-- The second support whole: row `r` comes from block `r / 400`, at row `r mod 400` of it. -/
def S2 (c : Dev nD) : Vec F S10000x16 .f32 := fun y => s2blk m c (rowBlk y) (rowLoc y)

/-- The output block of point `t` of the second phase: `adj_blk · s₂ + b₂`. -/
def outblk (c : Dev nD) (t : Fin cfg0.N) : Vec F S400x16 .f32 := k0_pay3 (iblk m c 1 t) (S2 m c) (iblk m c 5 t)

/-- The second scratch holds the second support on its first `400 n` rows. -/
def S2upto (c : Dev nD) (n : ℕ) (d : Vec F S10000x16 .f32) : Prop := ∀ y : S10000x16.Idx, (y 0).val < 400 * n → d y = S2 m c y

/-- Storing block `t` of the second support into rows `[400 t, 400 t + 400)` extends the rows that hold it by one block. -/
theorem S2upto_succ (c : Dev nD) (t : Fin cfg0.N) (ht : t.val < 25) (d : Vec F S10000x16 .f32) (hd : S2upto m c t.val d) :
    S2upto m c (t.val + 1) (sliceWrite (grid0.coords t) d (s2blk m c t)) := by
  intro y hy
  have ho := off1_at t ht
  have ho0 : k0_off1 (grid0.coords t) 0 = 400 * t.val := by rw [ho]; rfl
  have ho1 : k0_off1 (grid0.coords t) 1 = 0 := by rw [ho]; rfl
  have hy1 := ValueIdx.idx2_lt1 y
  unfold sliceWrite
  by_cases hin : ∀ a, k0_off1 (grid0.coords t) a ≤ (y a).val ∧ (y a).val < k0_off1 (grid0.coords t) a + S400x16.size a
  · rw [dif_pos hin]
    have h0 := hin 0
    rw [ho0] at h0
    have h0' : 400 * t.val ≤ (y 0).val ∧ (y 0).val < 400 * t.val + 400 := h0
    have hb : rowBlk y = t := Fin.ext (by show (y 0).val / 400 = t.val; omega)
    have hl : Rect.unitLocal (s := S10000x16) (off := k0_off1 (grid0.coords t)) (size := S400x16.size) y hin = rowLoc y :=
      funext fun a => Fin.ext (by
        match a with
        | ⟨0, _⟩ => rw [Rect.unitLocal_val]; show (y 0).val - k0_off1 (grid0.coords t) 0 = (y 0).val % 400; rw [ho0]; omega
        | ⟨1, _⟩ => rw [Rect.unitLocal_val]; show (y 1).val - k0_off1 (grid0.coords t) 1 = (y 1).val; rw [ho1]; omega)
    unfold S2
    rw [hb, hl]
  · rw [dif_neg hin]
    refine hd y ?_
    by_contra hge
    refine hin fun a => ?_
    match a with
    | ⟨0, _⟩ => show k0_off1 (grid0.coords t) 0 ≤ (y 0).val ∧ (y 0).val < k0_off1 (grid0.coords t) 0 + 400; rw [ho0]; omega
    | ⟨1, _⟩ => show k0_off1 (grid0.coords t) 1 ≤ (y 1).val ∧ (y 1).val < k0_off1 (grid0.coords t) 1 + 16; rw [ho1]; omega

/-- Once all 25 blocks are stored the second scratch holds the second support whole. -/
theorem eq_S2_of_upto (c : Dev nD) (n : ℕ) (hn : 25 ≤ n) (d : Vec F S10000x16 .f32) (hd : S2upto m c n d) : d = S2 m c :=
  funext fun y => hd y (by have := ValueIdx.idx2_lt0 y; omega)

/-! ## The invariant between points, and the proof data -/

/-- Before the first point both scratch buffers hold anything; after point `n` the first scratch holds the first
    support and the second scratch holds the second support on its first `400 (n + 1)` rows. -/
def PhiS (c : Dev nD) : ℕ → sProp 𝕄
  | 0 => Pipeline.ΦA spec0 c
  | n + 1 => iprop(iprop(owns (c : Thread nD τ) sc0 fullShare (S1 m c) ∗ (∃ d, ⌜S2upto m c (n + 1) d⌝ ∗ owns (c : Thread nD τ) sc1 fullShare d)) ∗ (∃ r, prngReg c r))

theorem PhiS_succ (c : Dev nD) (n : ℕ) :
    PhiS m c (n + 1) = iprop(iprop(owns (c : Thread nD τ) sc0 fullShare (S1 m c) ∗ (∃ d, ⌜S2upto m c (n + 1) d⌝ ∗ owns (c : Thread nD τ) sc1 fullShare d)) ∗ (∃ r, prngReg c r)) := rfl

theorem PhiS_pos (c : Dev nD) (n : ℕ) (hz : n ≠ 0) :
    PhiS m c n = iprop(iprop(owns (c : Thread nD τ) sc0 fullShare (S1 m c) ∗ (∃ d, ⌜S2upto m c n d⌝ ∗ owns (c : Thread nD τ) sc1 fullShare d)) ∗ (∃ r, prngReg c r)) := by
  cases n with
  | zero => exact absurd rfl hz
  | succ n => rfl

/-- The proof data of the one pipeline on core `c`: the arrays as the region finds them; after the body each input's
    buffer at its block, and the output's at the point's output block (consulted only in the second phase: in the first
    the window is idle); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outblk m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outblk m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point. The inputs' memrefs hold their blocks; the point's position decides the path; the invariant
    hands the body the two scratch buffers at what the points before left and takes them back at what this point
    leaves: the first support after the first point, one more block of the second support after each point of the first
    phase, everything unchanged in the second; there the output's buffer ends at the point's output block, and in the
    first phase it is handed back as it was found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) from rfl, PhiS_succ, show (dats m 0 c).Φ t.castSucc = PhiS m c t.val from by dsimp only [dats]; simp only [Fin.coe_castSucc]]
  have hN : t.val < 50 := lt_of_lt_of_eq t.isLt (show cfg0.N = 50 from N_0)
  rw [show (dats m 0 c).leavesExact 0 t = owns (c : Thread nD τ) (ms0 t) fullShare ((dats m 0 c).after 0 t) from by
      unfold Dat.leavesExact; rw [liveAt0 t], after0]
  rw [show (dats m 0 c).leavesExact 1 t = owns (c : Thread nD τ) (ms1 t) fullShare ((dats m 0 c).after 1 t) from by
      unfold Dat.leavesExact; rw [liveAt1 t], after1]
  rw [show (dats m 0 c).leavesExact 2 t = owns (c : Thread nD τ) (ms2 t) fullShare ((dats m 0 c).after 2 t) from by
      unfold Dat.leavesExact; rw [liveAt2 t], after2]
  rw [show (dats m 0 c).leavesExact 3 t = owns (c : Thread nD τ) (ms3 t) fullShare ((dats m 0 c).after 3 t) from by
      unfold Dat.leavesExact; rw [liveAt3 t], after3]
  rw [show (dats m 0 c).leavesExact 4 t = owns (c : Thread nD τ) (ms4 t) fullShare ((dats m 0 c).after 4 t) from by
      unfold Dat.leavesExact; rw [liveAt4 t], after4]
  rw [show (dats m 0 c).leavesExact 5 t = owns (c : Thread nD τ) (ms5 t) fullShare ((dats m 0 c).after 5 t) from by
      unfold Dat.leavesExact; rw [liveAt5 t], after5]
  by_cases h1 : t.val < 25
  · rw [Dat.leavesExact_idle (dats m 0 c) 6 t (idleAt6 t h1) (noFlush6 t h1)]
    by_cases hz : t.val = 0
    · obtain rfl : t = t0 := Fin.ext hz
      rw [show PhiS m c (t0 : Fin cfg0.N).val = Pipeline.ΦA spec0 c from rfl, PhiA_eq]
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runA c (grid0.coords t0) _ _ _ _ _ _ _ _ _ _ _ _ _ _ _ _ _ _ ((hcond0 t0).mpr rfl) ((hcond1 t0).mpr h1) (fun h => absurd ((hcond2 t0).mp h) (by omega)) (iblk m c 0 t0) (iblk m c 1 t0) (iblk m c 2 t0) (iblk m c 3 t0) (iblk m c 4 t0) (iblk m c 5 t0) ((dats m 0 c).before 6 t0 d6) e1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexists _; isplitr; swap; · iexact HS1
          ipureintro
          exact S2upto_succ m c t0 h1 e1 (fun y hy => absurd hy (by show ¬ (y 0).val < 400 * 0; omega))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_pos m c _ hz]
      iintro ⟨⟨⟨HS0, ⟨%e1, %he1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runB c (grid0.coords t) _ _ _ _ _ _ _ _ _ _ _ _ _ _ _ _ _ _ (fun h => hz ((hcond0 t).mp h)) ((hcond1 t).mpr h1) (fun h => absurd ((hcond2 t).mp h) (by omega)) (iblk m c 0 t) (iblk m c 1 t) (iblk m c 2 t) (iblk m c 3 t) (iblk m c 4 t) (iblk m c 5 t) ((dats m 0 c).before 6 t d6) (S1 m c) e1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexists _; isplitr; swap; · iexact HS1
          ipureintro
          exact S2upto_succ m c t h1 e1 he1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h2 : 25 ≤ t.val := by omega
    have hz : t.val ≠ 0 := by omega
    rw [show (dats m 0 c).leavesExact 6 t = owns (c : Thread nD τ) (ms6 t) fullShare ((dats m 0 c).after 6 t) from by
      unfold Dat.leavesExact; rw [liveAt6 t h2], after6]
    rw [PhiS_pos m c _ hz]
    iintro ⟨⟨⟨HS0, ⟨%e1, %he1, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : e1 = S2 m c := eq_S2_of_upto m c t.val h2 e1 he1
    iapply (runC c (grid0.coords t) _ _ _ _ _ _ _ _ _ _ _ _ _ _ _ _ _ _ (fun h => hz ((hcond0 t).mp h)) (fun h => h1 ((hcond1 t).mp h)) ((hcond2 t).mpr h2) (iblk m c 0 t) (iblk m c 1 t) (iblk m c 2 t) (iblk m c 3 t) (iblk m c 4 t) (iblk m c 5 t) (S1 m c) (S2 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexists _; isplitr; swap; · iexact HS1
        ipureintro
        exact fun y _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives both scratch buffers back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 50 := N_0; omega), PhiA_eq]
  iintro ⟨⟨HS0, ⟨%e1, -, HS1⟩⟩, Hg⟩
  isplitl [HS0 HS1]
  · isplitl [HS0]
    · iexists _; iexact HS0
    iexists _; iexact HS1
  iexact Hg

/-! ## The run and the frame -/

set_option backward.isDefEq.respectTransparency.types false in
/-- From any memory with zero counters every weakly fair execution of the program terminates, every array of the
    pipeline ends at what the write-backs of the proof data leave in it (an input at its entry contents, the output at
    its entry contents overwritten block by block by the points of the second phase), and every other unscoped buffer
    at its contents when the region was entered. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KernelIdeal.Runs.lean ====
/-
  The kernel body of the two-layer graph convolution, run on whole staging memrefs, one theorem per path through its
  three conditionals; each names what every buffer the body touches holds afterwards. Stated for any float instance.
-/
import proofs.«121120_g60687887893100_cont_9to1c4b_149_3_alg».proof.Proof.Gen.KernelIdeal.Skeleton
import proofs.«121120_g60687887893100_cont_9to1c4b_149_3_alg».proof.Proof.Gen.KernelIdeal.Frame
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditionals of the body, decided over the grid -/

/-- The first conditional's condition, from the grid coordinates: both coordinates are zero. -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- The slice of the second scratch that a point of the first phase stores: rows `[off, off + 400)`, every column,
    taken from the block `p`; every other element keeps `d`. -/
def sliceWrite (i : grid0.Coords) (d : Vec F S10000x16 .f32) (p : Vec F S400x16 .f32) : Vec F S10000x16 .f32 :=
  fun y => if hy : ∀ a, k0_off1 i a ≤ (y a).val ∧ (y a).val < k0_off1 i a + S400x16.size a then
    p (Rect.unitLocal (s := S10000x16) (off := k0_off1 i) (size := S400x16.size) y hy) else d y

/-! ## The body, case by case, on any whole staging memrefs

  At a point the body takes one of three paths. At the grid's first point it stores the first support
  `x · W₁` whole into the first scratch and then goes on as every point of the first phase does: it stores
  `relu (adj_blk · s₁ + b₁) · W₂` into the point's 400 rows of the second scratch. At a point of the second phase it
  stores `adj_blk · s₂ + b₂` into the output block. Each statement names what every buffer holds afterwards. -/

/-- The grid's first point: the first scratch ends at the first support, the second scratch at what it held with the
    point's rows replaced; the output block is not touched. -/
theorem runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x32 .f32) (harg9 : arg9.IsWhole) (arg10 : Memref sig .tc .vmem S10000x16 .f32) (harg10 : arg10.IsWhole) (hc0 : cond0 i) (hc1 : k0_cond2 i = 1#1) (hc2 : ¬k0_cond3 i = 1#1)
    (x0 : Vec F S10000x128 .f32) (x1 : Vec F S400x10000 .f32) (x2 : Vec F S128x32 .f32) (x3 : Vec F S1x32 .f32) (x4 : Vec F S32x16 .f32) (x5 : Vec F S1x16 .f32) (x6 : Vec F S400x16 .f32) (xs1 : Vec F S10000x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 x0 x2) ∗ owns (c : Thread nD τ) arg10 fullShare (sliceWrite i xs1 (k0_pay2 x1 (k0_pay1 x0 x2) x3 x4))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  have hz : (![0, 0] : Fin 2 → ℕ) = fun _ => 0 := by funext a; fin_cases a <;> rfl
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; swap; · iexact HS0
    ipureintro
    sl_unfold_words
    simp only [View.readAt_eq_ld, harg2.read_unread, harg3.read_unread, harg4.read_unread, harg5.read_unread, harg6.read_unread, harg7.read_unread, View.ld_unit_zero (S := S10000x128) hz, View.ld_unit_zero (S := S400x10000) hz, View.ld_unit_zero (S := S128x32) hz, View.ld_unit_zero (S := S1x32) hz, View.ld_unit_zero (S := S32x16) hz, View.ld_unit_zero (S := S1x16) hz]
    funext y
    exact View.read_writes_cons_unit_of_mem _ _ _ _ [] y y hz (fun a => (Nat.zero_add _).symm)
  iexists _; isplitr; swap; · iexact HS1
  ipureintro
  sl_unfold_words
  simp only [View.readAt_eq_ld, harg2.read_unread, harg3.read_unread, harg4.read_unread, harg5.read_unread, harg6.read_unread, harg7.read_unread, View.ld_unit_zero (S := S10000x128) hz, View.ld_unit_zero (S := S400x10000) hz, View.ld_unit_zero (S := S128x32) hz, View.ld_unit_zero (S := S1x32) hz, View.ld_unit_zero (S := S32x16) hz, View.ld_unit_zero (S := S1x16) hz, harg9.read_unread, View.ld_unit_zero (S := S10000x32) hz, View.readCov_unit_zero (S := S10000x32) _ hz]
  funext y
  refine (View.read_writes_cons_unit arg10.view _ _ _ [] y (off' := k0_off1 i) rfl).trans ?_
  unfold sliceWrite
  simp only [View.writes_nil, harg10.read_unread]

/-- A later point of the first phase: the first scratch is read and kept, the second scratch ends at what it held with
    the point's rows replaced; the output block is not touched. -/
theorem runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x32 .f32) (harg9 : arg9.IsWhole) (arg10 : Memref sig .tc .vmem S10000x16 .f32) (harg10 : arg10.IsWhole) (hc0 : ¬cond0 i) (hc1 : k0_cond2 i = 1#1) (hc2 : ¬k0_cond3 i = 1#1)
    (x0 : Vec F S10000x128 .f32) (x1 : Vec F S400x10000 .f32) (x2 : Vec F S128x32 .f32) (x3 : Vec F S1x32 .f32) (x4 : Vec F S32x16 .f32) (x5 : Vec F S1x16 .f32) (x6 : Vec F S400x16 .f32) (xs0 : Vec F S10000x32 .f32) (xs1 : Vec F S10000x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare (sliceWrite i xs1 (k0_pay2 x1 xs0 x3 x4))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  have hz : (![0, 0] : Fin 2 → ℕ) = fun _ => 0 := by funext a; fin_cases a <;> rfl
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; · ipureintro; exact harg9.read_unread _
    iexact HS0
  iexists _; isplitr; swap; · iexact HS1
  ipureintro
  sl_unfold_words
  simp only [View.readAt_eq_ld, harg2.read_unread, harg3.read_unread, harg4.read_unread, harg5.read_unread, harg6.read_unread, harg7.read_unread, View.ld_unit_zero (S := S10000x128) hz, View.ld_unit_zero (S := S400x10000) hz, View.ld_unit_zero (S := S128x32) hz, View.ld_unit_zero (S := S1x32) hz, View.ld_unit_zero (S := S32x16) hz, View.ld_unit_zero (S := S1x16) hz, harg9.read_unread, View.ld_unit_zero (S := S10000x32) hz, View.readCov_unit_zero (S := S10000x32) _ hz]
  funext y
  refine (View.read_writes_cons_unit arg10.view _ _ _ [] y (off' := k0_off1 i) rfl).trans ?_
  unfold sliceWrite
  simp only [View.writes_nil, harg10.read_unread]

/-- A point of the second phase: both scratch buffers are read and kept, the output block ends at the adjacency block
    times the second scratch plus the bias. -/
theorem runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x32 .f32) (harg9 : arg9.IsWhole) (arg10 : Memref sig .tc .vmem S10000x16 .f32) (harg10 : arg10.IsWhole) (hc0 : ¬cond0 i) (hc1 : ¬k0_cond2 i = 1#1) (hc2 : k0_cond3 i = 1#1)
    (x0 : Vec F S10000x128 .f32) (x1 : Vec F S400x10000 .f32) (x2 : Vec F S128x32 .f32) (x3 : Vec F S1x32 .f32) (x4 : Vec F S32x16 .f32) (x5 : Vec F S1x16 .f32) (xs0 : Vec F S10000x32 .f32) (xs1 : Vec F S10000x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x1 xs1 x5) ∗ owns (c : Thread nD τ) arg9 fullShare xs0 ∗ owns (c : Thread nD τ) arg10 fullShare xs1) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  have hz : (![0, 0] : Fin 2 → ℕ) = fun _ => 0 := by funext a; fin_cases a <;> rfl
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    sl_unfold_words
    simp only [View.readAt_eq_ld, harg2.read_unread, harg3.read_unread, harg4.read_unread, harg5.read_unread, harg6.read_unread, harg7.read_unread, View.ld_unit_zero (S := S10000x128) hz, View.ld_unit_zero (S := S400x10000) hz, View.ld_unit_zero (S := S128x32) hz, View.ld_unit_zero (S := S1x32) hz, View.ld_unit_zero (S := S32x16) hz, View.ld_unit_zero (S := S1x16) hz, harg10.read_unread, View.ld_unit_zero (S := S10000x16) hz]
    funext y
    exact View.read_writes_cons_unit_of_mem _ _ _ _ [] y y hz (fun a => (Nat.zero_add _).symm)
  isplitl [HS0]
  · iexists _; isplitr; · ipureintro; exact harg9.read_unread _
    iexact HS0
  iexists _; isplitr; · ipureintro; exact harg10.read_unread _
  iexact HS1

end Cert.KernelIdeal.Body

end
-- ==== Proof.KernelIdeal.Body.lean ====
/-
  The frame of the two-layer graph convolution kernel, for any float instance: what the two scratch buffers hold
  between grid points, what the body leaves in every staging buffer, and the run of the whole program.

  The grid has 50 points: 25 of a first phase, then 25 of a second. After the grid's first point the first scratch
  holds the first support `s₁ = x · W₁` for good. After point `n` of the first phase the rows `[0, 400 (n + 1))` of the
  second scratch hold the second support `s₂ = relu (adj · s₁ + b₁) · W₂` (block `n` of it is what point `n` stores);
  from the end of the first phase on, all of it does. A point of the second phase leaves `adj_blk · s₂ + b₂` in the
  output's staging buffer, which the pipeline then writes back; in the first phase the output window is idle.
-/
import proofs.«121120_g60687887893100_cont_9to1c4b_149_3_alg».proof.Proof.KernelIdeal.Runs
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule, decided over the grid -/

/-- The first conditional is taken at the grid's first point only, -/
theorem hcond0 : ∀ t : Fin cfg0.N, cond0 (grid0.coords t) ↔ t.val = 0 :=
  (by decide +kernel : ∀ t : Fin grid0.N, cond0 (grid0.coords t) ↔ t.val = 0)
/-- the second at the 25 points of the first phase, -/
theorem hcond1 : ∀ t : Fin cfg0.N, k0_cond2 (grid0.coords t) = 1#1 ↔ t.val < 25 :=
  (by decide +kernel : ∀ t : Fin grid0.N, k0_cond2 (grid0.coords t) = 1#1 ↔ t.val < 25)
/-- the third at the 25 points of the second phase. -/
theorem hcond2 : ∀ t : Fin cfg0.N, k0_cond3 (grid0.coords t) = 1#1 ↔ 25 ≤ t.val :=
  (by decide +kernel : ∀ t : Fin grid0.N, k0_cond3 (grid0.coords t) = 1#1 ↔ 25 ≤ t.val)

/-- The inputs' windows are never idle. -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
/-- The output's window is idle through the first phase, where its block is not written back either, -/
theorem idleAt6 : ∀ t : Fin cfg0.N, t.val < 25 → cfg0.idle 6 (grid0.coords t) = true := by decide +kernel
theorem noFlush6 : ∀ t : Fin cfg0.N, t.val < 25 → (cfg0.win 6).flush t = false := by decide +kernel
/-- and live through the second, where every point writes its block back. -/
theorem liveAt6 : ∀ t : Fin cfg0.N, 25 ≤ t.val → cfg0.idle 6 (grid0.coords t) = false := by decide +kernel
theorem flush6 : ∀ t : Fin cfg0.N, 25 ≤ t.val → (cfg0.win 6).flush t = true := by decide +kernel

/-- The second grid coordinate of point `t` is `t mod 25`. -/
theorem coord1 : ∀ t : Fin cfg0.N, ((grid0.coords t) 1).val = t.val % 25 := by decide +kernel

/-- At a point of the first phase the slice stored starts at row `400 t`, column 0. -/
theorem off1_at (t : Fin cfg0.N) (ht : t.val < 25) : k0_off1 (grid0.coords t) = ![400 * t.val, 0] := by
  rw [k0_off1_eq, coord1 t, Nat.mod_eq_of_lt ht]

/-! ## The staging memrefs at a point, and the scratch operands -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x16 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x16 .f32 := win0_6.stage (cfg0.slots t 6)
abbrev hs6 (t : Fin cfg0.N) : (ms6 t).IsWhole := hstage0_6 ((cfg0.slots t 6).cast nbuf0_6)
/-- The two scratch operands: whole buffers of the kernel's own. -/
abbrev sc0 : Memref sig .tc .vmem S10000x32 .f32 := Memref.whole cc0_scratch0
abbrev sc1 : Memref sig .tc .vmem S10000x16 .f32 := Memref.whole cc0_scratch1

/-- What the region hands the body before the first point: both scratch buffers at some contents, and the generator
    register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

variable (m : (ℓ : Loc nD τ sig) → Buf (Elt F) ℓ) (ρ : Dev nD → PrngReg)

/-! ## What the scratch buffers and the output block hold -/

/-- The grid's first point. -/
def t0 : Fin cfg0.N := ⟨0, by rw [show cfg0.N = 50 from N_0]; omega⟩

/-- The first support `x · W₁`: what the grid's first point stores into the first scratch. -/
def S1 (c : Dev nD) : Vec F S10000x32 .f32 := k0_pay1 (iblk m c 0 t0) (iblk m c 2 t0)

/-- Block `t` of the second support: `relu (adj_blk · s₁ + b₁) · W₂` over the adjacency block of point `t`. -/
def s2blk (c : Dev nD) (t : Fin cfg0.N) : Vec F S400x16 .f32 := k0_pay2 (iblk m c 1 t) (S1 m c) (iblk m c 3 t) (iblk m c 4 t)

/-- The row block an index of the second scratch lies in, as a grid point of the first phase, -/
def rowBlk (y : S10000x16.Idx) : Fin cfg0.N :=
  ⟨(y 0).val / 400, by rw [show cfg0.N = 50 from N_0]; have := ValueIdx.idx2_lt0 y; omega⟩
/-- and its position inside that block. -/
def rowLoc (y : S10000x16.Idx) : S400x16.Idx :=
  ValueIdx.ix2 ⟨(y 0).val % 400, Nat.mod_lt _ (by omega)⟩ ⟨(y 1).val, ValueIdx.idx2_lt1 y⟩

/-- The second support whole: row `r` comes from block `r / 400`, at row `r mod 400` of it. -/
def S2 (c : Dev nD) : Vec F S10000x16 .f32 := fun y => s2blk m c (rowBlk y) (rowLoc y)

/-- The output block of point `t` of the second phase: `adj_blk · s₂ + b₂`. -/
def outblk (c : Dev nD) (t : Fin cfg0.N) : Vec F S400x16 .f32 := k0_pay3 (iblk m c 1 t) (S2 m c) (iblk m c 5 t)

/-- The second scratch holds the second support on its first `400 n` rows. -/
def S2upto (c : Dev nD) (n : ℕ) (d : Vec F S10000x16 .f32) : Prop := ∀ y : S10000x16.Idx, (y 0).val < 400 * n → d y = S2 m c y

/-- Storing block `t` of the second support into rows `[400 t, 400 t + 400)` extends the rows that hold it by one block. -/
theorem S2upto_succ (c : Dev nD) (t : Fin cfg0.N) (ht : t.val < 25) (d : Vec F S10000x16 .f32) (hd : S2upto m c t.val d) :
    S2upto m c (t.val + 1) (sliceWrite (grid0.coords t) d (s2blk m c t)) := by
  intro y hy
  have ho := off1_at t ht
  have ho0 : k0_off1 (grid0.coords t) 0 = 400 * t.val := by rw [ho]; rfl
  have ho1 : k0_off1 (grid0.coords t) 1 = 0 := by rw [ho]; rfl
  have hy1 := ValueIdx.idx2_lt1 y
  unfold sliceWrite
  by_cases hin : ∀ a, k0_off1 (grid0.coords t) a ≤ (y a).val ∧ (y a).val < k0_off1 (grid0.coords t) a + S400x16.size a
  · rw [dif_pos hin]
    have h0 := hin 0
    rw [ho0] at h0
    have h0' : 400 * t.val ≤ (y 0).val ∧ (y 0).val < 400 * t.val + 400 := h0
    have hb : rowBlk y = t := Fin.ext (by show (y 0).val / 400 = t.val; omega)
    have hl : Rect.unitLocal (s := S10000x16) (off := k0_off1 (grid0.coords t)) (size := S400x16.size) y hin = rowLoc y :=
      funext fun a => Fin.ext (by
        match a with
        | ⟨0, _⟩ => rw [Rect.unitLocal_val]; show (y 0).val - k0_off1 (grid0.coords t) 0 = (y 0).val % 400; rw [ho0]; omega
        | ⟨1, _⟩ => rw [Rect.unitLocal_val]; show (y 1).val - k0_off1 (grid0.coords t) 1 = (y 1).val; rw [ho1]; omega)
    unfold S2
    rw [hb, hl]
  · rw [dif_neg hin]
    refine hd y ?_
    by_contra hge
    refine hin fun a => ?_
    match a with
    | ⟨0, _⟩ => show k0_off1 (grid0.coords t) 0 ≤ (y 0).val ∧ (y 0).val < k0_off1 (grid0.coords t) 0 + 400; rw [ho0]; omega
    | ⟨1, _⟩ => show k0_off1 (grid0.coords t) 1 ≤ (y 1).val ∧ (y 1).val < k0_off1 (grid0.coords t) 1 + 16; rw [ho1]; omega

/-- Once all 25 blocks are stored the second scratch holds the second support whole. -/
theorem eq_S2_of_upto (c : Dev nD) (n : ℕ) (hn : 25 ≤ n) (d : Vec F S10000x16 .f32) (hd : S2upto m c n d) : d = S2 m c :=
  funext fun y => hd y (by have := ValueIdx.idx2_lt0 y; omega)

/-! ## The invariant between points, and the proof data -/

/-- Before the first point both scratch buffers hold anything; after point `n` the first scratch holds the first
    support and the second scratch holds the second support on its first `400 (n + 1)` rows. -/
def PhiS (c : Dev nD) : ℕ → sProp 𝕄
  | 0 => Pipeline.ΦA spec0 c
  | n + 1 => iprop(iprop(owns (c : Thread nD τ) sc0 fullShare (S1 m c) ∗ (∃ d, ⌜S2upto m c (n + 1) d⌝ ∗ owns (c : Thread nD τ) sc1 fullShare d)) ∗ (∃ r, prngReg c r))

theorem PhiS_succ (c : Dev nD) (n : ℕ) :
    PhiS m c (n + 1) = iprop(iprop(owns (c : Thread nD τ) sc0 fullShare (S1 m c) ∗ (∃ d, ⌜S2upto m c (n + 1) d⌝ ∗ owns (c : Thread nD τ) sc1 fullShare d)) ∗ (∃ r, prngReg c r)) := rfl

theorem PhiS_pos (c : Dev nD) (n : ℕ) (hz : n ≠ 0) :
    PhiS m c n = iprop(iprop(owns (c : Thread nD τ) sc0 fullShare (S1 m c) ∗ (∃ d, ⌜S2upto m c n d⌝ ∗ owns (c : Thread nD τ) sc1 fullShare d)) ∗ (∃ r, prngReg c r)) := by
  cases n with
  | zero => exact absurd rfl hz
  | succ n => rfl

/-- The proof data of the one pipeline on core `c`: the arrays as the region finds them; after the body each input's
    buffer at its block, and the output's at the point's output block (consulted only in the second phase: in the first
    the window is idle); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outblk m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outblk m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point. The inputs' memrefs hold their blocks; the point's position decides the path; the invariant
    hands the body the two scratch buffers at what the points before left and takes them back at what this point
    leaves: the first support after the first point, one more block of the second support after each point of the first
    phase, everything unchanged in the second; there the output's buffer ends at the point's output block, and in the
    first phase it is handed back as it was found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) from rfl, PhiS_succ, show (dats m 0 c).Φ t.castSucc = PhiS m c t.val from by dsimp only [dats]; simp only [Fin.coe_castSucc]]
  have hN : t.val < 50 := lt_of_lt_of_eq t.isLt (show cfg0.N = 50 from N_0)
  rw [show (dats m 0 c).leavesExact 0 t = owns (c : Thread nD τ) (ms0 t) fullShare ((dats m 0 c).after 0 t) from by
      unfold Dat.leavesExact; rw [liveAt0 t], after0]
  rw [show (dats m 0 c).leavesExact 1 t = owns (c : Thread nD τ) (ms1 t) fullShare ((dats m 0 c).after 1 t) from by
      unfold Dat.leavesExact; rw [liveAt1 t], after1]
  rw [show (dats m 0 c).leavesExact 2 t = owns (c : Thread nD τ) (ms2 t) fullShare ((dats m 0 c).after 2 t) from by
      unfold Dat.leavesExact; rw [liveAt2 t], after2]
  rw [show (dats m 0 c).leavesExact 3 t = owns (c : Thread nD τ) (ms3 t) fullShare ((dats m 0 c).after 3 t) from by
      unfold Dat.leavesExact; rw [liveAt3 t], after3]
  rw [show (dats m 0 c).leavesExact 4 t = owns (c : Thread nD τ) (ms4 t) fullShare ((dats m 0 c).after 4 t) from by
      unfold Dat.leavesExact; rw [liveAt4 t], after4]
  rw [show (dats m 0 c).leavesExact 5 t = owns (c : Thread nD τ) (ms5 t) fullShare ((dats m 0 c).after 5 t) from by
      unfold Dat.leavesExact; rw [liveAt5 t], after5]
  by_cases h1 : t.val < 25
  · rw [Dat.leavesExact_idle (dats m 0 c) 6 t (idleAt6 t h1) (noFlush6 t h1)]
    by_cases hz : t.val = 0
    · obtain rfl : t = t0 := Fin.ext hz
      rw [show PhiS m c (t0 : Fin cfg0.N).val = Pipeline.ΦA spec0 c from rfl, PhiA_eq]
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runA c (grid0.coords t0) _ _ _ _ _ _ _ _ _ _ _ _ _ _ _ _ _ _ ((hcond0 t0).mpr rfl) ((hcond1 t0).mpr h1) (fun h => absurd ((hcond2 t0).mp h) (by omega)) (iblk m c 0 t0) (iblk m c 1 t0) (iblk m c 2 t0) (iblk m c 3 t0) (iblk m c 4 t0) (iblk m c 5 t0) ((dats m 0 c).before 6 t0 d6) e1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexists _; isplitr; swap; · iexact HS1
          ipureintro
          exact S2upto_succ m c t0 h1 e1 (fun y hy => absurd hy (by show ¬ (y 0).val < 400 * 0; omega))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_pos m c _ hz]
      iintro ⟨⟨⟨HS0, ⟨%e1, %he1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runB c (grid0.coords t) _ _ _ _ _ _ _ _ _ _ _ _ _ _ _ _ _ _ (fun h => hz ((hcond0 t).mp h)) ((hcond1 t).mpr h1) (fun h => absurd ((hcond2 t).mp h) (by omega)) (iblk m c 0 t) (iblk m c 1 t) (iblk m c 2 t) (iblk m c 3 t) (iblk m c 4 t) (iblk m c 5 t) ((dats m 0 c).before 6 t d6) (S1 m c) e1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexists _; isplitr; swap; · iexact HS1
          ipureintro
          exact S2upto_succ m c t h1 e1 he1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h2 : 25 ≤ t.val := by omega
    have hz : t.val ≠ 0 := by omega
    rw [show (dats m 0 c).leavesExact 6 t = owns (c : Thread nD τ) (ms6 t) fullShare ((dats m 0 c).after 6 t) from by
      unfold Dat.leavesExact; rw [liveAt6 t h2], after6]
    rw [PhiS_pos m c _ hz]
    iintro ⟨⟨⟨HS0, ⟨%e1, %he1, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : e1 = S2 m c := eq_S2_of_upto m c t.val h2 e1 he1
    iapply (runC c (grid0.coords t) _ _ _ _ _ _ _ _ _ _ _ _ _ _ _ _ _ _ (fun h => hz ((hcond0 t).mp h)) (fun h => h1 ((hcond1 t).mp h)) ((hcond2 t).mpr h2) (iblk m c 0 t) (iblk m c 1 t) (iblk m c 2 t) (iblk m c 3 t) (iblk m c 4 t) (iblk m c 5 t) (S1 m c) (S2 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexists _; isplitr; swap; · iexact HS1
        ipureintro
        exact fun y _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives both scratch buffers back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 50 := N_0; omega), PhiA_eq]
  iintro ⟨⟨HS0, ⟨%e1, -, HS1⟩⟩, Hg⟩
  isplitl [HS0 HS1]
  · isplitl [HS0]
    · iexists _; iexact HS0
    iexists _; iexact HS1
  iexact Hg

/-! ## The run and the frame -/

set_option backward.isDefEq.respectTransparency.types false in
/-- From any memory with zero counters every weakly fair execution of the program terminates, every array of the
    pipeline ends at what the write-backs of the proof data leave in it (an input at its entry contents, the output at
    its entry contents overwritten block by block by the points of the second phase), and every other unscoped buffer
    at its contents when the region was entered. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.Spec.lean ====
/-
  The two-layer graph convolution as ONE function of the six argument arrays, index by index, on the extended reals:

    support₁[j, h] = Σ_f x[j, f] · W₁[f, h]
    hidden[r, h]   = max (Σ_j adj[r, j] · support₁[j, h] + b₁[h]) 0
    support₂[j, k] = Σ_h hidden[j, h] · W₂[h, k]
    out[r, k]      = Σ_j adj[r, j] · support₂[j, k] + b₂[k]

  Both programs compute exactly these sums in exactly this grouping (the kernel row block by row block, the
  reference whole), so no law of the extended reals beyond the definitions is needed to join them.
-/
import Idealize.ShloMosaic.PureOps.Ideal
import Idealize.ShloMosaic.Lib.ValueIdx

noncomputable section

open scoped BigOperators

namespace Cert.Gcn

open Idealize.ShloMosaic Idealize.ShloMosaic.ValueIdx

/-- The literal shapes of the statement. -/
abbrev Sx : Shape := ⟨2, ![10000, 128]⟩
abbrev Sadj : Shape := ⟨2, ![10000, 10000]⟩
abbrev SW1 : Shape := ⟨2, ![128, 32]⟩
abbrev Sb1 : Shape := ⟨1, ![32]⟩
abbrev SW2 : Shape := ⟨2, ![32, 16]⟩
abbrev Sb2 : Shape := ⟨1, ![16]⟩
abbrev Sh : Shape := ⟨2, ![10000, 32]⟩
abbrev So : Shape := ⟨2, ![10000, 16]⟩

/-- First support: the features times the first weight matrix. -/
def support1 (x : Sx.Idx → EReal) (W1 : SW1.Idx → EReal) : Sh.Idx → EReal :=
  fun i => ∑ f : Fin 128, x (ix2 (i 0) f) * W1 (ix2 f (i 1))

/-- The hidden layer: the adjacency times a support, plus the bias of the column, clamped below at zero. -/
def hidden (adj : Sadj.Idx → EReal) (s1 : Sh.Idx → EReal) (b1 : Sb1.Idx → EReal) : Sh.Idx → EReal :=
  fun i => max ((∑ j : Fin 10000, adj (ix2 (i 0) j) * s1 (ix2 j (i 1))) + b1 (ix1 (i 1))) 0

/-- Second support: the hidden layer times the second weight matrix. -/
def support2 (h : Sh.Idx → EReal) (W2 : SW2.Idx → EReal) : So.Idx → EReal :=
  fun i => ∑ k : Fin 32, h (ix2 (i 0) k) * W2 (ix2 k (i 1))

/-- The output layer: the adjacency times the second support, plus the bias of the column. -/
def outLayer (adj : Sadj.Idx → EReal) (s2 : So.Idx → EReal) (b2 : Sb2.Idx → EReal) : So.Idx → EReal :=
  fun i => (∑ j : Fin 10000, adj (ix2 (i 0) j) * s2 (ix2 j (i 1))) + b2 (ix1 (i 1))

/-- The whole network as one function of the arguments. -/
def gcn (x : Sx.Idx → EReal) (adj : Sadj.Idx → EReal) (W1 : SW1.Idx → EReal) (b1 : Sb1.Idx → EReal)
    (W2 : SW2.Idx → EReal) (b2 : Sb2.Idx → EReal) : So.Idx → EReal :=
  outLayer adj (support2 (hidden adj (support1 x W1) b1) W2) b2

end Cert.Gcn

end
-- ==== Proof.PayValue.lean ====
/-
  The three blocks the kernel body stores, read entry by entry on the extended reals.

  The body has three branches, each storing one block:
    * the first support, the features times the first weight matrix: entry (j, h) is Σ_f x[j, f] · W₁[f, h];
    * a row block of the second support: entry (p, k) is Σ_h max (Σ_j adj[p, j] · s₁[j, h] + b₁[0, h]) 0 · W₂[h, k],
      the hidden row being formed inside the branch from a row block of the adjacency, the whole first support and
      the bias row, and clamped below at zero before it meets the second weight matrix;
    * a row block of the output: entry (p, k) is Σ_j adj[p, j] · s₂[j, k] + b₂[0, k].
  Every product accumulates into a zero block, so an entry of it is exactly the row-times-column sum; the bias is a
  one-row array repeated down the rows; the casts between equal shapes are the identity. The sums below are in the
  grouping the specification uses, so they meet it with no law of the extended reals.
-/
import proofs.«121120_g60687887893100_cont_9to1c4b_149_3_alg».proof.Proof.Gen.KernelIdeal.Skeleton
import proofs.«121120_g60687887893100_cont_9to1c4b_149_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Gcn.Pay

open Idealize.ShloMosaic Idealize.ShloMosaic.ValueIdx Cert.KernelIdeal Cert.KernelIdeal.Gen

/-! ## The four products, each read at one entry

  For a product of an [A, K] array with a [K, B] array the left factor is read at (row, position) and the right at
  (position, column), the position running over the one contracted axis. The four coordinate facts per product say
  so, and the entry lemma re-indexes the sum over the contracted axis by its one coordinate. -/

/-! ### Features times the first weight matrix -/

theorem lhs_xw_0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem lhs_xw_1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
theorem rhs_xw_0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
theorem rhs_xw_1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- Entry (j, h) of the product into the zero block is the sum over f of row j of the left factor times
    column h of the right factor. -/
theorem xw_apply (a : FVec Ideal S10000x128 .f32) (b : FVec Ideal S128x32 .f32) (j : Fin 10000) (h : Fin 32) :
    matmul (F := Ideal) dot_S10000x128_S128x32_S10000x32_1_0_0_1_n_n none a b (constant (F := Ideal) S10000x32 .f32 0x00000000#32) (ix2 j h)
      = ∑ f : Fin 128, a (ix2 j f) * b (ix2 f h) := by
  refine (Ideal.matmul_constant_zero_apply dot_S10000x128_S128x32_S10000x32_1_0_0_1_n_n none a b (ix2 j h)).trans ?_
  rw [← Equiv.sum_comp (contrEquiv1 dot_S10000x128_S128x32_S10000x32_1_0_0_1_n_n 128 rfl rfl).symm]
  refine Finset.sum_congr rfl fun f _ => ?_
  have hk := contrEquiv1_symm_val dot_S10000x128_S128x32_S10000x32_1_0_0_1_n_n 128 rfl rfl f
  have el : dot_S10000x128_S128x32_S10000x32_1_0_0_1_n_n.lhsIdx (ix2 j h) ((contrEquiv1 dot_S10000x128_S128x32_S10000x32_1_0_0_1_n_n 128 rfl rfl).symm f) = ix2 j f := funext fun ax => Fin.ext (by
    match ax with
    | ⟨0, _⟩ => exact lhs_xw_0 _ _
    | ⟨1, _⟩ => exact (lhs_xw_1 _ _).trans hk)
  have er : dot_S10000x128_S128x32_S10000x32_1_0_0_1_n_n.rhsIdx (ix2 j h) ((contrEquiv1 dot_S10000x128_S128x32_S10000x32_1_0_0_1_n_n 128 rfl rfl).symm f) = ix2 f h := funext fun ax => Fin.ext (by
    match ax with
    | ⟨0, _⟩ => exact (rhs_xw_0 _ _).trans hk
    | ⟨1, _⟩ => exact rhs_xw_1 _ _)
  rw [el, er]

/-! ### A row block of the adjacency times the first support -/

theorem lhs_as1_0 (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem lhs_as1_1 (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
theorem rhs_as1_0 (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
theorem rhs_as1_1 (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl

/-- Entry (p, h) of the product into the zero block is the sum over j of row p of the left factor times
    column h of the right factor. -/
theorem as1_apply (a : FVec Ideal S400x10000 .f32) (b : FVec Ideal S10000x32 .f32) (p : Fin 400) (h : Fin 32) :
    matmul (F := Ideal) dot_S400x10000_S10000x32_S400x32_1_0_0_1_n_n none a b (constant (F := Ideal) S400x32 .f32 0x00000000#32) (ix2 p h)
      = ∑ j : Fin 10000, a (ix2 p j) * b (ix2 j h) := by
  refine (Ideal.matmul_constant_zero_apply dot_S400x10000_S10000x32_S400x32_1_0_0_1_n_n none a b (ix2 p h)).trans ?_
  rw [← Equiv.sum_comp (contrEquiv1 dot_S400x10000_S10000x32_S400x32_1_0_0_1_n_n 10000 rfl rfl).symm]
  refine Finset.sum_congr rfl fun j _ => ?_
  have hk := contrEquiv1_symm_val dot_S400x10000_S10000x32_S400x32_1_0_0_1_n_n 10000 rfl rfl j
  have el : dot_S400x10000_S10000x32_S400x32_1_0_0_1_n_n.lhsIdx (ix2 p h) ((contrEquiv1 dot_S400x10000_S10000x32_S400x32_1_0_0_1_n_n 10000 rfl rfl).symm j) = ix2 p j := funext fun ax => Fin.ext (by
    match ax with
    | ⟨0, _⟩ => exact lhs_as1_0 _ _
    | ⟨1, _⟩ => exact (lhs_as1_1 _ _).trans hk)
  have er : dot_S400x10000_S10000x32_S400x32_1_0_0_1_n_n.rhsIdx (ix2 p h) ((contrEquiv1 dot_S400x10000_S10000x32_S400x32_1_0_0_1_n_n 10000 rfl rfl).symm j) = ix2 j h := funext fun ax => Fin.ext (by
    match ax with
    | ⟨0, _⟩ => exact (rhs_as1_0 _ _).trans hk
    | ⟨1, _⟩ => exact rhs_as1_1 _ _)
  rw [el, er]

/-! ### A row block of the hidden layer times the second weight matrix -/

theorem lhs_hw_0 (i : S400x16.Idx) (q : dot_S400x32_S32x16_S400x16_1_0_0_1_n_n.contr.Idx) :
    (dot_S400x32_S32x16_S400x16_1_0_0_1_n_n.lhsIdx i q 0).val = (i 0).val := by
  unfold DotDims.lhsIdx
  rw [dif_neg (show ¬(0 : Fin S400x32.rank) ∈ dot_S400x32_S32x16_S400x16_1_0_0_1_n_n.lhsBatch by decide), dif_pos (show (0 : Fin S400x32.rank) ∈ dot_S400x32_S32x16_S400x16_1_0_0_1_n_n.lhsNonContracting by decide)]
  rfl
theorem lhs_hw_1 (i : S400x16.Idx) (q : dot_S400x32_S32x16_S400x16_1_0_0_1_n_n.contr.Idx) :
    (dot_S400x32_S32x16_S400x16_1_0_0_1_n_n.lhsIdx i q 1).val = (q ⟨0, by decide⟩).val :=
  dot_S400x32_S32x16_S400x16_1_0_0_1_n_n.lhsIdx_val_of_single rfl i q
theorem rhs_hw_0 (i : S400x16.Idx) (q : dot_S400x32_S32x16_S400x16_1_0_0_1_n_n.contr.Idx) :
    (dot_S400x32_S32x16_S400x16_1_0_0_1_n_n.rhsIdx i q 0).val = (q ⟨0, by decide⟩).val :=
  dot_S400x32_S32x16_S400x16_1_0_0_1_n_n.rhsIdx_val_of_single rfl i q
theorem rhs_hw_1 (i : S400x16.Idx) (q : dot_S400x32_S32x16_S400x16_1_0_0_1_n_n.contr.Idx) :
    (dot_S400x32_S32x16_S400x16_1_0_0_1_n_n.rhsIdx i q 1).val = (i 1).val := by
  unfold DotDims.rhsIdx
  rw [dif_neg (show ¬(1 : Fin S32x16.rank) ∈ dot_S400x32_S32x16_S400x16_1_0_0_1_n_n.rhsBatch by decide), dif_pos (show (1 : Fin S32x16.rank) ∈ dot_S400x32_S32x16_S400x16_1_0_0_1_n_n.rhsNonContracting by decide)]
  rfl

/-- Entry (p, k) of the product into the zero block is the sum over h of row p of the left factor times
    column k of the right factor. -/
theorem hw_apply (a : FVec Ideal S400x32 .f32) (b : FVec Ideal S32x16 .f32) (p : Fin 400) (k : Fin 16) :
    matmul (F := Ideal) dot_S400x32_S32x16_S400x16_1_0_0_1_n_n none a b (constant (F := Ideal) S400x16 .f32 0x00000000#32) (ix2 p k)
      = ∑ h : Fin 32, a (ix2 p h) * b (ix2 h k) := by
  refine (Ideal.matmul_constant_zero_apply dot_S400x32_S32x16_S400x16_1_0_0_1_n_n none a b (ix2 p k)).trans ?_
  rw [← Equiv.sum_comp (contrEquiv1 dot_S400x32_S32x16_S400x16_1_0_0_1_n_n 32 rfl rfl).symm]
  refine Finset.sum_congr rfl fun h _ => ?_
  have hk := contrEquiv1_symm_val dot_S400x32_S32x16_S400x16_1_0_0_1_n_n 32 rfl rfl h
  have el : dot_S400x32_S32x16_S400x16_1_0_0_1_n_n.lhsIdx (ix2 p k) ((contrEquiv1 dot_S400x32_S32x16_S400x16_1_0_0_1_n_n 32 rfl rfl).symm h) = ix2 p h := funext fun ax => Fin.ext (by
    match ax with
    | ⟨0, _⟩ => exact lhs_hw_0 _ _
    | ⟨1, _⟩ => exact (lhs_hw_1 _ _).trans hk)
  have er : dot_S400x32_S32x16_S400x16_1_0_0_1_n_n.rhsIdx (ix2 p k) ((contrEquiv1 dot_S400x32_S32x16_S400x16_1_0_0_1_n_n 32 rfl rfl).symm h) = ix2 h k := funext fun ax => Fin.ext (by
    match ax with
    | ⟨0, _⟩ => exact (rhs_hw_0 _ _).trans hk
    | ⟨1, _⟩ => exact rhs_hw_1 _ _)
  rw [el, er]

/-! ### A row block of the adjacency times the second support -/

theorem lhs_as2_0 (i : S400x16.Idx) (q : dot_S400x10000_S10000x16_S400x16_1_0_0_1_n_n.contr.Idx) :
    (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem lhs_as2_1 (i : S400x16.Idx) (q : dot_S400x10000_S10000x16_S400x16_1_0_0_1_n_n.contr.Idx) :
    (dot_S400x10000_S10000x16_S400x16_1_0_0_1_n_n.lhsIdx i q 1).val = (q ⟨0, by decide⟩).val :=
  dot_S400x10000_S10000x16_S400x16_1_0_0_1_n_n.lhsIdx_val_of_single rfl i q
theorem rhs_as2_0 (i : S400x16.Idx) (q : dot_S400x10000_S10000x16_S400x16_1_0_0_1_n_n.contr.Idx) :
    (dot_S400x10000_S10000x16_S400x16_1_0_0_1_n_n.rhsIdx i q 0).val = (q ⟨0, by decide⟩).val :=
  dot_S400x10000_S10000x16_S400x16_1_0_0_1_n_n.rhsIdx_val_of_single rfl i q
theorem rhs_as2_1 (i : S400x16.Idx) (q : dot_S400x10000_S10000x16_S400x16_1_0_0_1_n_n.contr.Idx) :
    (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl

/-- Entry (p, k) of the product into the zero block is the sum over j of row p of the left factor times
    column k of the right factor. -/
theorem as2_apply (a : FVec Ideal S400x10000 .f32) (b : FVec Ideal S10000x16 .f32) (p : Fin 400) (k : Fin 16) :
    matmul (F := Ideal) dot_S400x10000_S10000x16_S400x16_1_0_0_1_n_n none a b (constant (F := Ideal) S400x16 .f32 0x00000000#32) (ix2 p k)
      = ∑ j : Fin 10000, a (ix2 p j) * b (ix2 j k) := by
  refine (Ideal.matmul_constant_zero_apply dot_S400x10000_S10000x16_S400x16_1_0_0_1_n_n none a b (ix2 p k)).trans ?_
  rw [← Equiv.sum_comp (contrEquiv1 dot_S400x10000_S10000x16_S400x16_1_0_0_1_n_n 10000 rfl rfl).symm]
  refine Finset.sum_congr rfl fun j _ => ?_
  have hk := contrEquiv1_symm_val dot_S400x10000_S10000x16_S400x16_1_0_0_1_n_n 10000 rfl rfl j
  have el : dot_S400x10000_S10000x16_S400x16_1_0_0_1_n_n.lhsIdx (ix2 p k) ((contrEquiv1 dot_S400x10000_S10000x16_S400x16_1_0_0_1_n_n 10000 rfl rfl).symm j) = ix2 p j := funext fun ax => Fin.ext (by
    match ax with
    | ⟨0, _⟩ => exact lhs_as2_0 _ _
    | ⟨1, _⟩ => exact (lhs_as2_1 _ _).trans hk)
  have er : dot_S400x10000_S10000x16_S400x16_1_0_0_1_n_n.rhsIdx (ix2 p k) ((contrEquiv1 dot_S400x10000_S10000x16_S400x16_1_0_0_1_n_n 10000 rfl rfl).symm j) = ix2 j k := funext fun ax => Fin.ext (by
    match ax with
    | ⟨0, _⟩ => exact (rhs_as2_0 _ _).trans hk
    | ⟨1, _⟩ => exact rhs_as2_1 _ _)
  rw [el, er]

/-! ## The bias row repeated down a block -/

/-- The one-row bias, cast to its own shape and repeated down the rows, reads at (p, c) the row's entry c. -/
theorem biasRow_apply {a b : ℕ} (v : (⟨2, ![1, b]⟩ : Shape).Idx → EReal)
    (hc : (⟨2, ![1, b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix2 (0 : Fin 1) c) :=
  (broadcastTo_1b_ab_apply _ hb p c).trans (congrFun (shapeCast_self v hc) _)

/-! ## The three stored blocks -/

/-- The first support: entry (j, h) of the stored block is Σ_f x[j, f] · W₁[f, h]. -/
theorem pay1_apply (v11 : Vec Ideal Cert.KernelIdeal.S10000x128 .f32) (v12 : Vec Ideal Cert.KernelIdeal.S128x32 .f32)
    (j : Fin 10000) (h : Fin 32) :
    Cert.KernelIdeal.Gen.k0_pay1 (F := Ideal) v11 v12 (ValueIdx.ix2 j h)
      = ∑ f : Fin 128, v11 (ValueIdx.ix2 j f) * v12 (ValueIdx.ix2 f h) := by
  unfold Cert.KernelIdeal.Gen.k0_pay1
  refine (congrFun (shapeCast_self _ _) (ix2 j h)).trans ?_
  exact xw_apply v11 v12 j h

/-- A row block of the second support: entry (p, k) is the sum over h of the hidden row's entry h, which is the
    adjacency row times column h of the first support plus the bias, clamped below at zero, times W₂[h, k]. -/
theorem pay2_apply (v11 : Vec Ideal Cert.KernelIdeal.S400x10000 .f32) (v12 : Vec Ideal Cert.KernelIdeal.S10000x32 .f32)
    (v14 : Vec Ideal Cert.KernelIdeal.S1x32 .f32) (v20 : Vec Ideal Cert.KernelIdeal.S32x16 .f32) (p : Fin 400) (k : Fin 16) :
    Cert.KernelIdeal.Gen.k0_pay2 (F := Ideal) v11 v12 v14 v20 (ValueIdx.ix2 p k)
      = ∑ h : Fin 32, max ((∑ j : Fin 10000, v11 (ValueIdx.ix2 p j) * v12 (ValueIdx.ix2 j h)) + v14 (ValueIdx.ix2 (0 : Fin 1) h)) 0
          * v20 (ValueIdx.ix2 h k) := by
  unfold Cert.KernelIdeal.Gen.k0_pay2
  refine (congrFun (shapeCast_self _ _) (ix2 p k)).trans ?_
  refine (hw_apply _ v20 p k).trans ?_
  refine Finset.sum_congr rfl fun h _ => congrArg (· * v20 (ix2 h k)) ?_
  refine (maximumf_apply _ _ _).trans ?_
  exact congrArg₂ max
    ((addf_apply _ _ _).trans (congrArg₂ (· + ·) (as1_apply v11 v12 p h) (biasRow_apply v14 _ _ p h)))
    Ideal.ofBits_zero_f32

/-- A row block of the output: entry (p, k) is the adjacency row times column k of the second support, plus the bias. -/
theorem pay3_apply (v11 : Vec Ideal Cert.KernelIdeal.S400x10000 .f32) (v12 : Vec Ideal Cert.KernelIdeal.S10000x16 .f32)
    (v14 : Vec Ideal Cert.KernelIdeal.S1x16 .f32) (p : Fin 400) (k : Fin 16) :
    Cert.KernelIdeal.Gen.k0_pay3 (F := Ideal) v11 v12 v14 (ValueIdx.ix2 p k)
      = (∑ j : Fin 10000, v11 (ValueIdx.ix2 p j) * v12 (ValueIdx.ix2 j k)) + v14 (ValueIdx.ix2 (0 : Fin 1) k) := by
  unfold Cert.KernelIdeal.Gen.k0_pay3
  refine (addf_apply _ _ _).trans ?_
  exact congrArg₂ (· + ·) (as2_apply v11 v12 p k) (biasRow_apply v14 _ _ p k)

end Cert.Gcn.Pay

end
-- ==== Proof.KernelValue.lean ====
/-
  The idealized kernel's result is the specification.

  Read on the extended reals, the first scratch holds `support₁ = x · W₁` (stored at the grid's first point from the whole
  feature and weight blocks); row `r` of the second scratch comes from the block stored at point `r / 400`, whose
  adjacency block is rows `[400 (r / 400), 400 (r / 400) + 400)` of the adjacency, so it is row `r` of
  `support₂ = relu (adj · support₁ + b₁) · W₂`; and point `25 + q` of the second phase writes back rows
  `[400 q, 400 q + 400)` of `adj · support₂ + b₂`. The 25 written blocks tile the output array, so it ends holding the
  whole network's value.
-/
import proofs.«121120_g60687887893100_cont_9to1c4b_149_3_alg».proof.Proof.KernelIdeal.Body
import proofs.«121120_g60687887893100_cont_9to1c4b_149_3_alg».proof.Proof.PayValue
import Idealize.ShloMosaic.Lib.StableHlo.Run

set_option maxRecDepth 16384

noncomputable section

open scoped BigOperators

namespace Cert.Gcn.Kernel

open Cert.KernelIdeal Cert.KernelIdeal.Gen Cert.KernelIdeal.Body Cert.Gcn Cert.Gcn.Pay
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The six argument arrays as launched -/

abbrev ax (c : Dev nD) : Sx.Idx → EReal := m ((c : Thread nD τ).loc main_arg0)
abbrev aadj (c : Dev nD) : Sadj.Idx → EReal := m ((c : Thread nD τ).loc main_arg1)
abbrev aW1 (c : Dev nD) : SW1.Idx → EReal := m ((c : Thread nD τ).loc main_arg2)
abbrev ab1 (c : Dev nD) : Sb1.Idx → EReal := m ((c : Thread nD τ).loc main_arg3)
abbrev aW2 (c : Dev nD) : SW2.Idx → EReal := m ((c : Thread nD τ).loc main_arg4)
abbrev ab2 (c : Dev nD) : Sb2.Idx → EReal := m ((c : Thread nD τ).loc main_arg5)

/-! ## Where each window's block sits in its array -/

/-- Every window but the adjacency's and the output's has one block, the whole array. -/
theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- The adjacency's block at point `t` is row block `t mod 25`, -/
theorem idx1 : ∀ t : Fin cfg0.N, win0_1.index t (0 : Fin 2) = t.val % 25 ∧ win0_1.index t (1 : Fin 2) = 0 :=
  (by decide +kernel : ∀ t : Fin grid0.N, win0_1.index t (0 : Fin 2) = t.val % 25 ∧ win0_1.index t (1 : Fin 2) = 0)
/-- and the output's block at a point of the second phase is row block `t - 25`. -/
theorem idx6 : ∀ t : Fin cfg0.N, 25 ≤ t.val → win0_6.index t (0 : Fin 2) = t.val - 25 ∧ win0_6.index t (1 : Fin 2) = 0 :=
  (by decide +kernel : ∀ t : Fin grid0.N, 25 ≤ t.val → win0_6.index t (0 : Fin 2) = t.val - 25 ∧ win0_6.index t (1 : Fin 2) = 0)

/-! ## The blocks the body loads, entry by entry -/

theorem blk0 (c : Dev nD) (t : Fin cfg0.N) (j : Fin 10000) (f : Fin 128) : iblk m c 0 t (ix2 j f) = ax m c (ix2 j f) := by
  show V m c main_arg0 (((cfg0.win 0).blk t).view.emb (ix2 j f)) = _
  rw [V_main_arg0]
  obtain ⟨e0, e1⟩ := idx0 t
  have h : ((cfg0.win 0).blk t).view.emb (ix2 j f) = (ix2 j f : S10000x128.Idx) := by
    funext a; apply Fin.ext
    match a with
    | ⟨0, _⟩ => show win0_0.index t (0 : Fin 2) * 10000 + 1 * j.val = j.val; omega
    | ⟨1, _⟩ => show win0_0.index t (1 : Fin 2) * 128 + 1 * f.val = f.val; omega
  rw [h]

theorem blk2 (c : Dev nD) (t : Fin cfg0.N) (f : Fin 128) (h : Fin 32) : iblk m c 2 t (ix2 f h) = aW1 m c (ix2 f h) := by
  show V m c main_arg2 (((cfg0.win 2).blk t).view.emb (ix2 f h)) = _
  rw [V_main_arg2]
  obtain ⟨e0, e1⟩ := idx2 t
  have hh : ((cfg0.win 2).blk t).view.emb (ix2 f h) = (ix2 f h : S128x32.Idx) := by
    funext a; apply Fin.ext
    match a with
    | ⟨0, _⟩ => show win0_2.index t (0 : Fin 2) * 128 + 1 * f.val = f.val; omega
    | ⟨1, _⟩ => show win0_2.index t (1 : Fin 2) * 32 + 1 * h.val = h.val; omega
  rw [hh]

theorem blk4 (c : Dev nD) (t : Fin cfg0.N) (h : Fin 32) (k : Fin 16) : iblk m c 4 t (ix2 h k) = aW2 m c (ix2 h k) := by
  show V m c main_arg4 (((cfg0.win 4).blk t).view.emb (ix2 h k)) = _
  rw [V_main_arg4]
  obtain ⟨e0, e1⟩ := idx4 t
  have hh : ((cfg0.win 4).blk t).view.emb (ix2 h k) = (ix2 h k : S32x16.Idx) := by
    funext a; apply Fin.ext
    match a with
    | ⟨0, _⟩ => show win0_4.index t (0 : Fin 2) * 32 + 1 * h.val = h.val; omega
    | ⟨1, _⟩ => show win0_4.index t (1 : Fin 2) * 16 + 1 * k.val = k.val; omega
  rw [hh]

/-- The adjacency block of point `t`: row `p` of it is row `400 (t mod 25) + p` of the adjacency. -/
theorem blk1 (c : Dev nD) (t : Fin cfg0.N) (p : Fin 400) (j : Fin 10000) (r : Fin 10000) (hr : r.val = 400 * (t.val % 25) + p.val) :
    iblk m c 1 t (ix2 p j) = aadj m c (ix2 r j) := by
  show V m c main_arg1 (((cfg0.win 1).blk t).view.emb (ix2 p j)) = _
  rw [V_main_arg1]
  obtain ⟨e0, e1⟩ := idx1 t
  have hh : ((cfg0.win 1).blk t).view.emb (ix2 p j) = (ix2 r j : S10000x10000.Idx) := by
    funext a; apply Fin.ext
    match a with
    | ⟨0, _⟩ => show win0_1.index t (0 : Fin 2) * 400 + 1 * p.val = r.val; omega
    | ⟨1, _⟩ => show win0_1.index t (1 : Fin 2) * 10000 + 1 * j.val = j.val; omega
  rw [hh]

/-- The first bias as the region finds it: the bias vector viewed as one row. -/
theorem V_bias1 (c : Dev nD) : (V m c main_v0 : S1x32.Idx → EReal) = shapeCast S1x32 (m ((c : Thread nD τ).loc main_arg3)) shapeCasts_S32_S1x32 := by
  dsimp only [Gen.V, Gen.hostOps0]; after_results; rfl
theorem V_bias2 (c : Dev nD) : (V m c main_v1 : S1x16.Idx → EReal) = shapeCast S1x16 (m ((c : Thread nD τ).loc main_arg5)) shapeCasts_S16_S1x16 := by
  dsimp only [Gen.V, Gen.hostOps0]; after_results; rfl

theorem blk3 (c : Dev nD) (t : Fin cfg0.N) (h : Fin 32) : iblk m c 3 t (ix2 (0 : Fin 1) h) = ab1 m c (ix1 h) := by
  show V m c main_v0 (((cfg0.win 3).blk t).view.emb (ix2 (0 : Fin 1) h)) = _
  obtain ⟨e0, e1⟩ := idx3 t
  have hh : ((cfg0.win 3).blk t).view.emb (ix2 (0 : Fin 1) h) = (ix2 (0 : Fin 1) h : S1x32.Idx) := by
    funext a; apply Fin.ext
    match a with
    | ⟨0, _⟩ => show win0_3.index t (0 : Fin 2) * 1 + 1 * 0 = 0; omega
    | ⟨1, _⟩ => show win0_3.index t (1 : Fin 2) * 32 + 1 * h.val = h.val; omega
  rw [hh, V_bias1]
  exact shapeCast_apply _ _ _ (ix1 h : S32.Idx) (by rw [Shape.rowMajor_val_one, Shape.rowMajor_val_two]; show h.val = 0 * 32 + h.val; omega)

theorem blk5 (c : Dev nD) (t : Fin cfg0.N) (k : Fin 16) : iblk m c 5 t (ix2 (0 : Fin 1) k) = ab2 m c (ix1 k) := by
  show V m c main_v1 (((cfg0.win 5).blk t).view.emb (ix2 (0 : Fin 1) k)) = _
  obtain ⟨e0, e1⟩ := idx5 t
  have hh : ((cfg0.win 5).blk t).view.emb (ix2 (0 : Fin 1) k) = (ix2 (0 : Fin 1) k : S1x16.Idx) := by
    funext a; apply Fin.ext
    match a with
    | ⟨0, _⟩ => show win0_5.index t (0 : Fin 2) * 1 + 1 * 0 = 0; omega
    | ⟨1, _⟩ => show win0_5.index t (1 : Fin 2) * 16 + 1 * k.val = k.val; omega
  rw [hh, V_bias2]
  exact shapeCast_apply _ _ _ (ix1 k : S16.Idx) (by rw [Shape.rowMajor_val_one, Shape.rowMajor_val_two]; show k.val = 0 * 16 + k.val; omega)

/-! ## The two scratch buffers are the two supports -/

/-- The first scratch holds the first support. -/
theorem S1_apply (c : Dev nD) (j : Fin 10000) (h : Fin 32) :
    S1 m c (ix2 j h) = support1 (ax m c) (aW1 m c) (ix2 j h) := by
  unfold S1
  refine (pay1_apply (iblk m c 0 t0) (iblk m c 2 t0) j h).trans ?_
  unfold support1
  exact Finset.sum_congr rfl fun f _ => congrArg₂ (· * ·) (blk0 m c t0 j f) (blk2 m c t0 f h)

/-- The second scratch, once filled, holds the second support: row `r` was stored at point `r / 400`, whose adjacency
    block starts at row `400 (r / 400)`. -/
theorem S2_eq (c : Dev nD) :
    S2 m c = support2 (hidden (aadj m c) (support1 (ax m c) (aW1 m c)) (ab1 m c)) (aW2 m c) := by
  funext y
  have hy0 := idx2_lt0 y
  have hy1 := idx2_lt1 y
  unfold S2 s2blk rowLoc
  refine (pay2_apply (iblk m c 1 (rowBlk y)) (S1 m c) (iblk m c 3 (rowBlk y)) (iblk m c 4 (rowBlk y)) ⟨(y 0).val % 400, Nat.mod_lt _ (by omega)⟩ ⟨(y 1).val, hy1⟩).trans ?_
  unfold support2 hidden
  refine Finset.sum_congr rfl fun h _ => congrArg₂ (· * ·) (congrArg₂ max (congrArg₂ (· + ·) (Finset.sum_congr rfl fun j _ => congrArg₂ (· * ·) ?_ (S1_apply m c j h)) (blk3 m c (rowBlk y) h)) rfl) (blk4 m c (rowBlk y) h ⟨(y 1).val, hy1⟩)
  refine blk1 m c (rowBlk y) ⟨(y 0).val % 400, Nat.mod_lt _ (by omega)⟩ j (y 0) ?_
  show (y 0).val = 400 * ((y 0).val / 400 % 25) + (y 0).val % 400
  omega

/-- The output block of a point of the second phase is its 400 rows of the whole network's value. -/
theorem outblk_apply (c : Dev nD) (t : Fin cfg0.N) (ht : 25 ≤ t.val) (p : Fin 400) (k : Fin 16) (r : Fin 10000)
    (hr : r.val = 400 * (t.val - 25) + p.val) :
    outblk m c t (ix2 p k) = gcn (ax m c) (aadj m c) (aW1 m c) (ab1 m c) (aW2 m c) (ab2 m c) (ix2 r k) := by
  have hN : t.val < 50 := lt_of_lt_of_eq t.isLt (show cfg0.N = 50 from N_0)
  unfold outblk
  refine (pay3_apply (iblk m c 1 t) (S2 m c) (iblk m c 5 t) p k).trans ?_
  unfold gcn outLayer
  rw [S2_eq]
  exact congrArg₂ (· + ·) (Finset.sum_congr rfl fun j _ => congrArg₂ (· * ·) (blk1 m c t p j r (by omega)) rfl) (blk5 m c t k)

/-! ## From the written blocks to the output array -/

/-- What a point of the second phase writes back is its block of the network's value. -/
theorem flushed_eq (c : Dev nD) (t : Fin cfg0.N) (ht : 25 ≤ t.val) :
    (dats m 0 c).flushed 6 t = ((cfg0.win 6).blk t).view.read (Elt Ideal) (gcn (ax m c) (aadj m c) (aW1 m c) (ab1 m c) (aW2 m c) (ab2 m c)) := by
  have hN : t.val < 50 := lt_of_lt_of_eq t.isLt (show cfg0.N = 50 from N_0)
  show (cfg0.win 6).cut (grid0.coords t) ((dats m 0 c).after 6 t) = _
  rw [after6]
  obtain ⟨e0, e1⟩ := idx6 t ht
  funext y
  obtain ⟨p, k, rfl⟩ : ∃ (p : Fin 400) (k : Fin 16), y = ix2 p k := ⟨y 0, y 1, eq_ix2 y⟩
  show outblk m c t (ix2 p k) = gcn (ax m c) (aadj m c) (aW1 m c) (ab1 m c) (aW2 m c) (ab2 m c) (((cfg0.win 6).blk t).view.emb (ix2 p k))
  have hh : ((cfg0.win 6).blk t).view.emb (ix2 p k) = (ix2 (⟨400 * (t.val - 25) + p.val, by omega⟩ : Fin 10000) k : S10000x16.Idx) := by
    funext a; apply Fin.ext
    match a with
    | ⟨0, _⟩ => show win0_6.index t (0 : Fin 2) * 400 + 1 * p.val = 400 * (t.val - 25) + p.val; omega
    | ⟨1, _⟩ => show win0_6.index t (1 : Fin 2) * 16 + 1 * k.val = k.val; omega
  rw [hh]
  exact outblk_apply m c t ht p k _ rfl

/-- An index of the output array is in point `t`'s block iff each coordinate is in the block's range on its axis. -/
theorem mem_blk6 (t : Fin cfg0.N) (i : S10000x16.Idx) :
    i ∈ ((cfg0.win 6).blk t).view.set ↔ ∀ a : Fin 2, win0_6.index t a * S400x16.size a ≤ (i a).val ∧ (i a).val < win0_6.index t a * S400x16.size a + S400x16.size a := by
  show i ∈ ((View.whole main_v2).slice (win0_6.rect t)).set ↔ _
  rw [View.set_slice_whole, Rect.mem_set_unit]
  exact Iff.rfl

/-- Every row of the output lies in the block some point of the second phase writes back. -/
theorem cover6 (i : S10000x16.Idx) : ∃ t : Fin cfg0.N, (cfg0.win 6).flush t = true ∧ i ∈ ((cfg0.win 6).blk t).view.set := by
  have hi0 := idx2_lt0 i
  have hi1 := idx2_lt1 i
  have hlt : 25 + (i 0).val / 400 < cfg0.N := by rw [show cfg0.N = 50 from N_0]; omega
  have ht : 25 ≤ (⟨25 + (i 0).val / 400, hlt⟩ : Fin cfg0.N).val := Nat.le_add_right _ _
  obtain ⟨e0, e1⟩ := idx6 ⟨25 + (i 0).val / 400, hlt⟩ ht
  have e0' : win0_6.index ⟨25 + (i 0).val / 400, hlt⟩ (0 : Fin 2) = (i 0).val / 400 := by rw [e0]; show 25 + (i 0).val / 400 - 25 = _; omega
  refine ⟨⟨25 + (i 0).val / 400, hlt⟩, flush6 _ ht, (mem_blk6 _ i).mpr fun a => ?_⟩
  match a with
  | ⟨0, _⟩ => show win0_6.index ⟨25 + (i 0).val / 400, hlt⟩ (0 : Fin 2) * 400 ≤ (i 0).val ∧ (i 0).val < win0_6.index ⟨25 + (i 0).val / 400, hlt⟩ (0 : Fin 2) * 400 + 400; rw [e0']; omega
  | ⟨1, _⟩ => show win0_6.index ⟨25 + (i 0).val / 400, hlt⟩ (1 : Fin 2) * 16 ≤ (i 1).val ∧ (i 1).val < win0_6.index ⟨25 + (i 0).val / 400, hlt⟩ (1 : Fin 2) * 16 + 16; rw [e1]; omega

/-- The output array after the run is the whole network's value. -/
theorem final (c : Dev nD) :
    (dats m 0 c).arrAt 6 cfg0.N = gcn (ax m c) (aadj m c) (aW1 m c) (ab1 m c) (aW2 m c) (ab2 m c) :=
  (dats m 0 c).arrAt_eq_of_cover 6 _ (fun t hf => flushed_eq m c t (by
    by_contra h
    have := noFlush6 t (by omega)
    rw [this] at hf
    exact Bool.false_ne_true hf)) cover6

/-! ## The run, read -/

/-- Every weakly fair execution of the idealized kernel terminates with the result array at the network's value of
    the argument arrays, and the arguments unchanged. -/
theorem run : θ_run defs (onTc (τ := τ) (main (F := Ideal))) ⟨m, fun _ => 0, ρ⟩ fun r => ∀ c : Dev nD,
      r.2.mem ((c : Thread nD τ).loc main_v2) = gcn (ax m c) (aadj m c) (aW1 m c) (ab1 m c) (aW2 m c) (ab2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1 6).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.Gcn.Kernel

end
-- ==== Proof.RefValue.lean ====
/-
  The reference program's value is the specification.

  The reference computes the network whole, one operation at a time:

    v0 = x · W₁                         (the first support)
    v1 = adj · v0
    v4 = v1 + b₁ (the bias repeated down the rows),   v5 = max v4 0     (the hidden layer)
    v6 = v5 · W₂                        (the second support)
    v7 = adj · v6,   v10 = v7 + b₂ (the bias repeated down the rows)    (the output layer)

  Read at an index, a product of two matrices is the sum over the contracted coordinate of the left factor at
  (row, k) times the right factor at (k, column), a repeated bias is the bias at the column, and on the extended
  reals the sum, the maximum and the zero constant are the extended reals' own. So each stage of the reference is,
  index by index, the matching stage of the specification, and the whole is their composition.
-/
import proofs.«121120_g60687887893100_cont_9to1c4b_149_3_alg».proof.Proof.Gen.ReferenceIdeal.Read
import proofs.«121120_g60687887893100_cont_9to1c4b_149_3_alg».proof.Proof.Spec
import Idealize.ShloMosaic.PureOps.Ideal
import Idealize.ShloMosaic.PureOps.Ideal.Laws
import Idealize.ShloMosaic.Lib.ValueIdx

noncomputable section

open scoped BigOperators

namespace Cert.Gcn.Ref

open Cert.ReferenceIdeal Cert.ReferenceIdeal.Read Idealize.ShloMosaic Idealize.ShloMosaic.ValueIdx

/-! ## The indices a product reads are (row, k) and (k, column) -/

theorem lidx_v0 (i : S10000x32.Idx) (k : Fin 128) : lidx_main_v0 i k = (ix2 (i 0) k : S10000x128.Idx) :=
  funext fun a => Fin.ext (by match a with | ⟨0, _⟩ => rfl | ⟨1, _⟩ => rfl)
theorem ridx_v0 (i : S10000x32.Idx) (k : Fin 128) : ridx_main_v0 i k = (ix2 k (i 1) : S128x32.Idx) :=
  funext fun a => Fin.ext (by match a with | ⟨0, _⟩ => rfl | ⟨1, _⟩ => rfl)
theorem lidx_v1 (i : S10000x32.Idx) (k : Fin 10000) : lidx_main_v1 i k = (ix2 (i 0) k : S10000x10000.Idx) :=
  funext fun a => Fin.ext (by match a with | ⟨0, _⟩ => rfl | ⟨1, _⟩ => rfl)
theorem ridx_v1 (i : S10000x32.Idx) (k : Fin 10000) : ridx_main_v1 i k = (ix2 k (i 1) : S10000x32.Idx) :=
  funext fun a => Fin.ext (by match a with | ⟨0, _⟩ => rfl | ⟨1, _⟩ => rfl)
theorem lidx_v6 (i : S10000x16.Idx) (k : Fin 32) : lidx_main_v6 i k = (ix2 (i 0) k : S10000x32.Idx) :=
  funext fun a => Fin.ext (by match a with | ⟨0, _⟩ => rfl | ⟨1, _⟩ => rfl)
theorem ridx_v6 (i : S10000x16.Idx) (k : Fin 32) : ridx_main_v6 i k = (ix2 k (i 1) : S32x16.Idx) :=
  funext fun a => Fin.ext (by match a with | ⟨0, _⟩ => rfl | ⟨1, _⟩ => rfl)
theorem lidx_v7 (i : S10000x16.Idx) (k : Fin 10000) : lidx_main_v7 i k = (ix2 (i 0) k : S10000x10000.Idx) :=
  funext fun a => Fin.ext (by match a with | ⟨0, _⟩ => rfl | ⟨1, _⟩ => rfl)
theorem ridx_v7 (i : S10000x16.Idx) (k : Fin 10000) : ridx_main_v7 i k = (ix2 k (i 1) : S10000x16.Idx) :=
  funext fun a => Fin.ext (by match a with | ⟨0, _⟩ => rfl | ⟨1, _⟩ => rfl)

/-! ## A bias repeated down the rows is the bias at the column -/

theorem bias1_apply (x3 : (⟨S32, .f32⟩ : BufTy).Contents (Elt Ideal)) (i : S10000x32.Idx) :
    val_main_v3 (F := Ideal) x3 i = x3 (ix1 (i 1) : S32.Idx) := by
  rw [val_main_v3_apply, val_main_v2_apply]
  exact congrArg x3 (funext fun a => Fin.ext (by match a with | ⟨0, _⟩ => rfl))

theorem bias2_apply (x5 : (⟨S16, .f32⟩ : BufTy).Contents (Elt Ideal)) (i : S10000x16.Idx) :
    val_main_v9 (F := Ideal) x5 i = x5 (ix1 (i 1) : S16.Idx) := by
  rw [val_main_v9_apply, val_main_v8_apply]
  exact congrArg x5 (funext fun a => Fin.ext (by match a with | ⟨0, _⟩ => rfl))

/-- The constant the clamp compares with is zero at every index. -/
theorem zero_apply (i : S10000x32.Idx) : val_main_call0_v0 (F := Ideal) i = (0 : EReal) := by
  rw [val_main_call0_v0_apply, val_main_call0_cst_apply, Ideal.ofBits_def, Ideal.ofBits_zero_f32]

/-! ## The stages -/

/-- The reference's first product is the first support. -/
theorem v0_eq (x0 : (⟨S10000x128, .f32⟩ : BufTy).Contents (Elt Ideal)) (x2 : (⟨S128x32, .f32⟩ : BufTy).Contents (Elt Ideal)) :
    val_main_v0 (F := Ideal) x0 x2 = support1 x0 x2 := by
  funext i
  rw [val_main_v0_apply]
  unfold support1
  refine Finset.sum_congr rfl fun k _ => ?_
  rw [lidx_v0, ridx_v0]

/-- The adjacency times the first support, plus the bias, clamped below at zero, is the hidden layer. -/
theorem v5_eq (x0 : (⟨S10000x128, .f32⟩ : BufTy).Contents (Elt Ideal)) (x1 : (⟨S10000x10000, .f32⟩ : BufTy).Contents (Elt Ideal))
    (x2 : (⟨S128x32, .f32⟩ : BufTy).Contents (Elt Ideal)) (x3 : (⟨S32, .f32⟩ : BufTy).Contents (Elt Ideal)) :
    val_main_v5 (F := Ideal) x0 x1 x2 x3 = hidden x1 (support1 x0 x2) x3 := by
  funext i
  rw [val_main_v5_apply, Ideal.maximumf_def, zero_apply, val_main_v4_apply, Ideal.addf_def, bias1_apply,
    val_main_v1_apply, v0_eq]
  unfold hidden
  congr 2
  refine Finset.sum_congr rfl fun k _ => ?_
  rw [lidx_v1, ridx_v1]

/-- The hidden layer times the second weight matrix is the second support. -/
theorem v6_eq (x0 : (⟨S10000x128, .f32⟩ : BufTy).Contents (Elt Ideal)) (x1 : (⟨S10000x10000, .f32⟩ : BufTy).Contents (Elt Ideal))
    (x2 : (⟨S128x32, .f32⟩ : BufTy).Contents (Elt Ideal)) (x3 : (⟨S32, .f32⟩ : BufTy).Contents (Elt Ideal))
    (x4 : (⟨S32x16, .f32⟩ : BufTy).Contents (Elt Ideal)) :
    val_main_v6 (F := Ideal) x0 x1 x2 x3 x4 = support2 (hidden x1 (support1 x0 x2) x3) x4 := by
  funext i
  rw [val_main_v6_apply, v5_eq]
  unfold support2
  refine Finset.sum_congr rfl fun k _ => ?_
  rw [lidx_v6, ridx_v6]

/-- The reference's value is the specification: the adjacency times the second support, plus the bias, is the output
    layer, and the stages compose to the whole network. -/
theorem ref_eq (x0 : (⟨Cert.ReferenceIdeal.S10000x128, .f32⟩ : BufTy).Contents (Elt Ideal))
    (x1 : (⟨Cert.ReferenceIdeal.S10000x10000, .f32⟩ : BufTy).Contents (Elt Ideal))
    (x2 : (⟨Cert.ReferenceIdeal.S128x32, .f32⟩ : BufTy).Contents (Elt Ideal))
    (x3 : (⟨Cert.ReferenceIdeal.S32, .f32⟩ : BufTy).Contents (Elt Ideal))
    (x4 : (⟨Cert.ReferenceIdeal.S32x16, .f32⟩ : BufTy).Contents (Elt Ideal))
    (x5 : (⟨Cert.ReferenceIdeal.S16, .f32⟩ : BufTy).Contents (Elt Ideal)) :
    Cert.ReferenceIdeal.Read.val_main_v10 (F := Ideal) x0 x1 x2 x3 x4 x5 = Cert.Gcn.gcn x0 x1 x2 x3 x4 x5 := by
  funext i
  rw [val_main_v10_apply, Ideal.addf_def, bias2_apply, val_main_v7_apply, v6_eq]
  unfold gcn outLayer
  congr 1
  refine Finset.sum_congr rfl fun k _ => ?_
  rw [lidx_v7, ridx_v7]

end Cert.Gcn.Ref

end
-- ==== Proof.lean ====
/-
  The certificate of the two-layer graph convolution kernel against its reference:

      out = adj · (relu (adj · (x · W₁) + b₁) · W₂) + b₂.

  The kernel walks a grid of 2 × 25 points over 400-row blocks of the adjacency. In the first phase it keeps
  `x · W₁` in one scratch buffer and fills a second, 400 rows per point, with `relu (adj · (x · W₁) + b₁) · W₂`; in the
  second phase it writes `adj_blk · (second scratch) + b₂` to the output, block by block. The reference computes the same
  four products whole. On the extended reals both are the same sums in the same grouping, so the two results agree
  index by index with no law beyond the definitions; the frames say each program runs and leaves its arguments alone.
-/
import proofs.«121120_g60687887893100_cont_9to1c4b_149_3_alg».proof.Defs
import proofs.«121120_g60687887893100_cont_9to1c4b_149_3_alg».proof.Proof.Gen.Kernel
import proofs.«121120_g60687887893100_cont_9to1c4b_149_3_alg».proof.Proof.Gen.KernelIdeal
import proofs.«121120_g60687887893100_cont_9to1c4b_149_3_alg».proof.Proof.Gen.ReferenceIdeal
import proofs.«121120_g60687887893100_cont_9to1c4b_149_3_alg».proof.Proof.Gen.Pre_finite_inputs
import proofs.«121120_g60687887893100_cont_9to1c4b_149_3_alg».proof.Proof.Gen.ReferenceIdeal.Run
import proofs.«121120_g60687887893100_cont_9to1c4b_149_3_alg».proof.Proof.Gen.ReferenceIdeal.Read
import proofs.«121120_g60687887893100_cont_9to1c4b_149_3_alg».proof.Proof.Kernel.Body
import proofs.«121120_g60687887893100_cont_9to1c4b_149_3_alg».proof.Proof.KernelIdeal.Body
import proofs.«121120_g60687887893100_cont_9to1c4b_149_3_alg».proof.Proof.KernelValue
import proofs.«121120_g60687887893100_cont_9to1c4b_149_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the network's value of the (agreeing) arguments. -/
theorem algebraic : Cert.algebraic_KernelIdeal_ReferenceIdeal := by
  intro m ρ m' ρ' _ hagree
  refine ⟨_, Cert.Gcn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.Gcn.Ref.ref_eq, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
